-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x64 : Shape := ⟨2, ![1024, 64]⟩
abbrev S64 : Shape := ⟨1, ![64]⟩
abbrev S64x16384 : Shape := ⟨2, ![64, 16384]⟩
abbrev S16384 : Shape := ⟨1, ![16384]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x16384 : S_.BroadcastsInDim S64x16384 (![] : Fin 0 → Fin S64x16384.rank)
  reducesTo_S64x16384_S_d0_1 : S64x16384.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S64x16384 1) : IVec S_ 1 :=
  let main_c_5 : IVec S_ 1 := constantI S_ 1 1#1
  let main_v17 : IVec S_ 1 := (fun x v => Host.reduce IntOp.andi x v reducesTo_S64x16384_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S4096x1024 .f32) (main_arg1 : FVec F S1024x64 .f32) (main_arg2 : FVec F S64 .f32) (main_arg3 : FVec F S64x16384 .f32) (main_arg4 : FVec F S16384 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16384 .f32 := Host.absf main_arg3
  let main_cst_4 : FVec F S_ .f32 := constant S_ .f32 0x7F800000#32
  let main_v15 : FVec F S64x16384 .f32 := broadcastInDim S64x16384 ![] bcast_S_S64x16384 main_cst_4
  let main_v16 : IVec S64x16384 1 := cmpf .olt main_v14 main_v15
  fn_part1 (F := F) main_arg4 main_v13 main_v16
-- ==== Kernel.lean ====
abbrev S4096x1024 : Shape := ⟨2, ![4096, 1024]⟩
abbrev S1024x64 : Shape := ⟨2, ![1024, 64]⟩
abbrev S64 : Shape := ⟨1, ![64]⟩
abbrev S64x16384 : Shape := ⟨2, ![64, 16384]⟩
abbrev S16384 : Shape := ⟨1, ![16384]⟩
abbrev S1x64 : Shape := ⟨2, ![1, 64]⟩
abbrev S1x16384 : Shape := ⟨2, ![1, 16384]⟩
abbrev S4096x16384 : Shape := ⟨2, ![4096, 16384]⟩
abbrev S256x1024 : Shape := ⟨2, ![256, 1024]⟩
abbrev S256x16384 : Shape := ⟨2, ![256, 16384]⟩
abbrev S256x64 : Shape := ⟨2, ![256, 64]⟩
abbrev S256x1 : Shape := ⟨2, ![256, 1]⟩
abbrev S64x2048 : Shape := ⟨2, ![64, 2048]⟩
abbrev S256x2048 : Shape := ⟨2, ![256, 2048]⟩
abbrev S1x2048 : Shape := ⟨2, ![1, 2048]⟩
abbrev S256 : Shape := ⟨1, ![256]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x64, .f32⟩
  | .hbm, ⟨2, _⟩ => ⟨S64, .f32⟩
  | .hbm, ⟨3, _⟩ => ⟨S64x16384, .f32⟩
  | .hbm, ⟨4, _⟩ => ⟨S16384, .f32⟩
  | .hbm, ⟨5, _⟩ => ⟨S1x64, .f32⟩
  | .hbm, ⟨6, _⟩ => ⟨S1x16384, .f32⟩
  | .hbm, ⟨7, _⟩ => ⟨S4096x16384, .f32⟩
  | .local _ .vmem, ⟨0, _⟩ => ⟨S256x1024, .f32⟩
  | .local _ .vmem, ⟨1, _⟩ => ⟨S256x1024, .f32⟩
  | .local _ .vmem, ⟨2, _⟩ => ⟨S1024x64, .f32⟩
  | .local _ .vmem, ⟨3, _⟩ => ⟨S1x64, .f32⟩
  | .local _ .vmem, ⟨4, _⟩ => ⟨S64x16384, .f32⟩
  | .local _ .vmem, ⟨5, _⟩ => ⟨S1x16384, .f32⟩
  | .local _ .vmem, ⟨6, _⟩ => ⟨S256x16384, .f32⟩
  | .local _ .vmem, ⟨7, _⟩ => ⟨S256x16384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  shapeCasts_S16384_S1x16384 : S16384.ShapeCasts S1x16384
  inb_S256x1024_S256x1024_0_0 : ∀ a, (![0, 0] : Fin 2 → Nat) a + S256x1024.size a ≤ S256x1024.size a
  h_S256x1024 : 0 < S256x1024.numel
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x16384_S64x2048_0_0 : ∀ a, (![0, 0] : Fin 2 → Nat) a + S64x2048.size a ≤ S64x16384.size a
  h_S64x2048 : 0 < S64x2048.numel
  inb_S1x16384_S1x2048_0_0 : ∀ a, (![0, 0] : Fin 2 → Nat) a + S1x2048.size a ≤ S1x16384.size a
  h_S1x2048 : 0 < S1x2048.numel
  shapeCasts_S1x2048_S1x2048 : S1x2048.ShapeCasts S1x2048
  broadcasts_S1x2048_S256x2048 : S1x2048.Broadcasts S256x2048
  inb_S256x16384_S256x2048_0_0 : ∀ a, (![0, 0] : Fin 2 → Nat) a + S256x2048.size a ≤ S256x16384.size a
  h_S256x2048 : 0 < S256x2048.numel
  reduces_S256x2048_S256 : S256x2048.Reduces [1] S256
  shapeCasts_S256_S256x1 : S256.ShapeCasts S256x1
  inb_S64x16384_S64x2048_0_2048 : ∀ a, (![0, 2048] : Fin 2 → Nat) a + S64x2048.size a ≤ S64x16384.size a
  inb_S1x16384_S1x2048_0_2048 : ∀ a, (![0, 2048] : Fin 2 → Nat) a + S1x2048.size a ≤ S1x16384.size a
  inb_S256x16384_S256x2048_0_2048 : ∀ a, (![0, 2048] : Fin 2 → Nat) a + S256x2048.size a ≤ S256x16384.size a
  inb_S64x16384_S64x2048_0_4096 : ∀ a, (![0, 4096] : Fin 2 → Nat) a + S64x2048.size a ≤ S64x16384.size a
  inb_S1x16384_S1x2048_0_4096 : ∀ a, (![0, 4096] : Fin 2 → Nat) a + S1x2048.size a ≤ S1x16384.size a
  inb_S256x16384_S256x2048_0_4096 : ∀ a, (![0, 4096] : Fin 2 → Nat) a + S256x2048.size a ≤ S256x16384.size a
  inb_S64x16384_S64x2048_0_6144 : ∀ a, (![0, 6144] : Fin 2 → Nat) a + S64x2048.size a ≤ S64x16384.size a
  inb_S1x16384_S1x2048_0_6144 : ∀ a, (![0, 6144] : Fin 2 → Nat) a + S1x2048.size a ≤ S1x16384.size a
  inb_S256x16384_S256x2048_0_6144 : ∀ a, (![0, 6144] : Fin 2 → Nat) a + S256x2048.size a ≤ S256x16384.size a
  inb_S64x16384_S64x2048_0_8192 : ∀ a, (![0, 8192] : Fin 2 → Nat) a + S64x2048.size a ≤ S64x16384.size a
  inb_S1x16384_S1x2048_0_8192 : ∀ a, (![0, 8192] : Fin 2 → Nat) a + S1x2048.size a ≤ S1x16384.size a
  inb_S256x16384_S256x2048_0_8192 : ∀ a, (![0, 8192] : Fin 2 → Nat) a + S256x2048.size a ≤ S256x16384.size a
  inb_S64x16384_S64x2048_0_10240 : ∀ a, (![0, 10240] : Fin 2 → Nat) a + S64x2048.size a ≤ S64x16384.size a
  inb_S1x16384_S1x2048_0_10240 : ∀ a, (![0, 10240] : Fin 2 → Nat) a + S1x2048.size a ≤ S1x16384.size a
  inb_S256x16384_S256x2048_0_10240 : ∀ a, (![0, 10240] : Fin 2 → Nat) a + S256x2048.size a ≤ S256x16384.size a
  inb_S64x16384_S64x2048_0_12288 : ∀ a, (![0, 12288] : Fin 2 → Nat) a + S64x2048.size a ≤ S64x16384.size a
  inb_S1x16384_S1x2048_0_12288 : ∀ a, (![0, 12288] : Fin 2 → Nat) a + S1x2048.size a ≤ S1x16384.size a
  inb_S256x16384_S256x2048_0_12288 : ∀ a, (![0, 12288] : Fin 2 → Nat) a + S256x2048.size a ≤ S256x16384.size a
  inb_S64x16384_S64x2048_0_14336 : ∀ a, (![0, 14336] : Fin 2 → Nat) a + S64x2048.size a ≤ S64x16384.size a
  inb_S1x16384_S1x2048_0_14336 : ∀ a, (![0, 14336] : Fin 2 → Nat) a + S1x2048.size a ≤ S1x16384.size a
  inb_S256x16384_S256x2048_0_14336 : ∀ a, (![0, 14336] : Fin 2 → Nat) a + S256x2048.size a ≤ S256x16384.size a
  shapeCasts_S256x2048_S256x2048 : S256x2048.ShapeCasts S256x2048
  broadcasts_S256x1_S256x2048 : S256x1.Broadcasts S256x2048
  dot_S256x1024_S1024x64_S256x64_1_0_0_1_n_n_wf : DotDims.WF S256x1024 S1024x64 S256x64 [1] [0] [0] [1] [] []
  dot_S256x64_S64x2048_S256x2048_1_0_0_1_n_n_wf : DotDims.WF S256x64 S64x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S64x16384.size a
  hwx0_3 : ∀ i : grid0.Coords, EltTy.bits .f32 = 32 ∨ (Rect.block (s := S64x16384) S64x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x16384.size a
  hwx0_4 : ∀ i : grid0.Coords, EltTy.bits .f32 = 32 ∨ (Rect.block (s := S1x16384) S1x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x16384.size a ≤ S4096x16384.size a
  hwx0_5 : ∀ i : grid0.Coords, EltTy.bits .f32 = 32 ∨ (Rect.block (s := S4096x16384) S256x16384.size (cc0_transform_5 i) (hinb0_5 i)).WholeWords (EltTy.packing .f32)

variable [Facts₀]

def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x64 : Shape := ⟨2, ![1024, 64]⟩
abbrev S64 : Shape := ⟨1, ![64]⟩
abbrev S64x16384 : Shape := ⟨2, ![64, 16384]⟩
abbrev S16384 : Shape := ⟨1, ![16384]⟩
abbrev S4096x64 : Shape := ⟨2, ![4096, 64]⟩
abbrev S1x64 : Shape := ⟨2, ![1, 64]⟩
abbrev S_ : Shape := ⟨0, ![]⟩
abbrev S4096x16384 : Shape := ⟨2, ![4096, 16384]⟩
abbrev S1x16384 : Shape := ⟨2, ![1, 16384]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x64, .f32⟩
  | .hbm, ⟨2, _⟩ => ⟨S64, .f32⟩
  | .hbm, ⟨3, _⟩ => ⟨S64x16384, .f32⟩
  | .hbm, ⟨4, _⟩ => ⟨S16384, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | .hbm, ⟨9, _⟩ => ⟨S_, .f32⟩
  | .hbm, ⟨10, _⟩ => ⟨S4096x64, .f32⟩
  | .hbm, ⟨11, _⟩ => ⟨S4096x64, .f32⟩
  | .hbm, ⟨12, _⟩ => ⟨S4096x16384, .f32⟩
  | .hbm, ⟨13, _⟩ => ⟨S1x16384, .f32⟩
  | .hbm, ⟨14, _⟩ => ⟨S4096x16384, .f32⟩
  | .hbm, ⟨15, _⟩ => ⟨S4096x16384, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x16384, .f32⟩
  | .hbm, ⟨23, _⟩ => ⟨S4096x16384, .f32⟩
  | .hbm, ⟨24, _⟩ => ⟨S4096x16384, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x16384, .f32⟩
  | .hbm, ⟨29, _⟩ => ⟨S4096x16384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S4096_d1 : S4096x16384.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x16384_0_1 : S4096x1.BroadcastsInDim S4096x16384 (![0, 1] : Fin 2 → Fin S4096x16384.rank)
  dot_S4096x1024_S1024x64_S4096x64_1_0_0_1_n_n_wf : DotDims.WF S4096x1024 S1024x64 S4096x64 [1] [0] [0] [1] [] []
  dot_S4096x64_S64x16384_S4096x16384_1_0_0_1_n_n_wf : DotDims.WF S4096x64 S64x16384 S4096x16384 [1] [0] [0] [1] [] []

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x16384_S4096x16384_1_0_0_1_n_n : DotDims S4096x64 S64x16384 S4096x16384 where
  lhsContracting := [1]
  rhsContracting := [0]
  lhsNonContracting := [0]
  rhsNonContracting := [1]
  lhsBatch := []
  rhsBatch := []
  wf := dot_S4096x64_S64x16384_S4096x16384_1_0_0_1_n_n_wf

class Facts : Prop extends Facts₀ where

variable [Facts]
-- ==== Proof.RowSoftmax.lean ====
/-
  The mathematics of one output row, on the extended reals.

  A row `x` of the conditioning input goes through a two-layer network: hidden unit `k` is
  `max (Σ_d x d · W1 d k + b1 k) 0`, outcome `q` has the logit `Σ_k hidden k · W2 k q + b2 q`, and the row of
  probabilities is the softmax of the logits. Two spellings of that softmax are compared.
  The first exponentiates the logits as they are, adds the 16384 exponentials up eight stretches of 2048 at a time,
  and multiplies each exponential by the reciprocal of the total.  The second subtracts the row's largest logit
  before exponentiating and divides by the sum of the shifted exponentials.  For real logits they agree: the shift
  multiplies numerator and denominator by the same factor `e^(-M)`, which is neither zero nor infinite, and the total
  is a sum of positive reals, so it is not zero.  For infinite logits the two spellings differ, which is why the
  statement asks every entry of the row and of the parameters to be a real.
-/
import Idealize.ShloMosaic.PureOps.Ideal
import Idealize.ShloMosaic.PureOps.Ideal.Laws
import Idealize.ShloMosaic.Lib.IdealHost
import Mathlib.Algebra.BigOperators.Fin
import Mathlib.Logic.Equiv.Fin.Basic
import Mathlib.Data.Finset.Fold

noncomputable section

namespace Cert.RowSoftmax

open Idealize.ShloMosaic

/-! ## Sums: reals inside the extended reals, and a long sum cut into equal stretches -/

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `n · c` places is the sum, over the `n` stretches of length `c`, of each stretch's sum. -/
theorem sum_stretches {M : Type} [AddCommMonoid M] (n c : ℕ) (f : Fin (n * c) → M) :
    ∑ q, f q = ∑ j : Fin n, ∑ i : Fin c, f ⟨c * j.val + i.val, by
      have := j.isLt; have := i.isLt
      calc c * j.val + i.val < c * j.val + c := by omega
        _ = c * (j.val + 1) := by ring
        _ ≤ c * n := Nat.mul_le_mul_left c (by omega)
        _ = n * c := Nat.mul_comm c n⟩ := by
  rw [← (finProdFinEquiv : Fin n × Fin c ≃ Fin (n * c)).sum_comp f, Fintype.sum_prod_type]
  refine Finset.sum_congr rfl fun j _ => Finset.sum_congr rfl fun i _ => congrArg f (Fin.ext ?_)
  show i.val + c * j.val = c * j.val + i.val
  omega

/-- The eight stretches of 2048 of a row of 16384 entries, added one after the other onto zero. -/
def sum8 (e : Fin 16384 → EReal) : EReal :=
  ((((((((0 + ∑ i : Fin 2048, e ⟨0 + i.val, by have := i.isLt; omega⟩)
    + ∑ i : Fin 2048, e ⟨2048 + i.val, by have := i.isLt; omega⟩)
    + ∑ i : Fin 2048, e ⟨4096 + i.val, by have := i.isLt; omega⟩)
    + ∑ i : Fin 2048, e ⟨6144 + i.val, by have := i.isLt; omega⟩)
    + ∑ i : Fin 2048, e ⟨8192 + i.val, by have := i.isLt; omega⟩)
    + ∑ i : Fin 2048, e ⟨10240 + i.val, by have := i.isLt; omega⟩)
    + ∑ i : Fin 2048, e ⟨12288 + i.val, by have := i.isLt; omega⟩)
    + ∑ i : Fin 2048, e ⟨14336 + i.val, by have := i.isLt; omega⟩)

/-- Added up stretch by stretch, the row's sum is the row's sum. -/
theorem sum8_eq (e : Fin 16384 → EReal) : sum8 e = ∑ q, e q := by
  have h := sum_stretches (M := EReal) 8 2048 (fun q : Fin (8 * 2048) => e ⟨q.val, q.isLt⟩)
  have h' : (∑ q : Fin 16384, e q) = ∑ q : Fin (8 * 2048), e ⟨q.val, q.isLt⟩ := rfl
  rw [h', h, Fin.sum_univ_eight]
  unfold sum8
  rw [zero_add]
  rfl

/-! ## The row -/

section Row

variable (x : Fin 1024 → EReal) (W1 : Fin 1024 → Fin 64 → EReal) (b1 : Fin 64 → EReal)
  (W2 : Fin 64 → Fin 16384 → EReal) (b2 : Fin 16384 → EReal)

/-- Hidden unit `k` of the row: the rectified affine form. -/
def hidden (k : Fin 64) : EReal := max ((∑ d : Fin 1024, x d * W1 d k) + b1 k) 0

/-- The logit of outcome `q`. -/
def logit (q : Fin 16384) : EReal := (∑ k : Fin 64, hidden x W1 b1 k * W2 k q) + b2 q

/-- The probability of outcome `q`, unshifted: the exponential times the reciprocal of the total taken stretch by
    stretch. -/
def probUnshifted (q : Fin 16384) : EReal :=
  Ideal.exp (logit x W1 b1 W2 b2 q) * Ideal.div 1 (sum8 fun q' => Ideal.exp (logit x W1 b1 W2 b2 q'))

/-- The row's largest logit, as a fold of `max` from `-∞`, once more against `-∞`. -/
def rowMax : EReal := max ⊥ (Finset.univ.fold max ⊥ (logit x W1 b1 W2 b2))

/-- The probability of outcome `q`, shifted by the row's largest logit. -/
def probShifted (q : Fin 16384) : EReal :=
  Ideal.div (Ideal.exp (logit x W1 b1 W2 b2 q - rowMax x W1 b1 W2 b2))
    (0 + ∑ q' : Fin 16384, Ideal.exp (logit x W1 b1 W2 b2 q' - rowMax x W1 b1 W2 b2))

end Row

/-! ## Real entries give real logits -/

/-- A finite sum of products of reals is a real. -/
theorem sum_mul_real {ι : Type} [Fintype ι] (f g : ι → EReal) (hf : ∀ i, ∃ r : ℝ, f i = r) (hg : ∀ i, ∃ r : ℝ, g i = r) :
    ∃ r : ℝ, (∑ i, f i * g i) = r := by
  choose f' hf' using hf
  choose g' hg' using hg
  refine ⟨∑ i, f' i * g' i, ?_⟩
  rw [coe_sum]
  exact Finset.sum_congr rfl fun i _ => by rw [hf' i, hg' i, EReal.coe_mul]

theorem hidden_real {x : Fin 1024 → EReal} {W1 : Fin 1024 → Fin 64 → EReal} {b1 : Fin 64 → EReal}
    (hx : ∀ d, ∃ r : ℝ, x d = r) (hW1 : ∀ d k, ∃ r : ℝ, W1 d k = r) (hb1 : ∀ k, ∃ r : ℝ, b1 k = r) (k : Fin 64) :
    ∃ r : ℝ, hidden x W1 b1 k = r := by
  obtain ⟨s, hs⟩ := sum_mul_real x (fun d => W1 d k) hx (fun d => hW1 d k)
  obtain ⟨b, hb⟩ := hb1 k
  refine ⟨max (s + b) 0, ?_⟩
  unfold hidden
  rw [hs, hb, ← EReal.coe_add, ← EReal.coe_zero]
  exact (EReal.coe_strictMono.monotone.map_max).symm

theorem logit_real {x : Fin 1024 → EReal} {W1 : Fin 1024 → Fin 64 → EReal} {b1 : Fin 64 → EReal}
    {W2 : Fin 64 → Fin 16384 → EReal} {b2 : Fin 16384 → EReal}
    (hx : ∀ d, ∃ r : ℝ, x d = r) (hW1 : ∀ d k, ∃ r : ℝ, W1 d k = r) (hb1 : ∀ k, ∃ r : ℝ, b1 k = r)
    (hW2 : ∀ k q, ∃ r : ℝ, W2 k q = r) (hb2 : ∀ q, ∃ r : ℝ, b2 q = r) (q : Fin 16384) :
    ∃ r : ℝ, logit x W1 b1 W2 b2 q = r := by
  obtain ⟨s, hs⟩ := sum_mul_real (hidden x W1 b1) (fun k => W2 k q) (hidden_real hx hW1 hb1) (fun k => hW2 k q)
  obtain ⟨b, hb⟩ := hb2 q
  exact ⟨s + b, by unfold logit; rw [hs, hb, EReal.coe_add]⟩

/-- The largest of finitely many reals, folded from `-∞`, is a real when there is at least one of them. -/
theorem foldMax_real {ι : Type} [Fintype ι] [Nonempty ι] (l : ι → ℝ) :
    ∃ r : ℝ, max (⊥ : EReal) (Finset.univ.fold max (⊥ : EReal) fun i => (l i : EReal)) = r := by
  obtain ⟨i0⟩ := ‹Nonempty ι›
  have hlt : Finset.univ.fold max (⊥ : EReal) (fun i => (l i : EReal)) < ⊤ :=
    (Finset.fold_max_lt _).mpr ⟨bot_lt_top, fun i _ => EReal.coe_lt_top _⟩
  have hgt : ⊥ < Finset.univ.fold max (⊥ : EReal) (fun i => (l i : EReal)) :=
    (Finset.lt_fold_max _).mpr (Or.inr ⟨i0, Finset.mem_univ _, EReal.bot_lt_coe _⟩)
  rw [max_eq_right bot_le]
  exact ⟨_, (EReal.coe_toReal hlt.ne hgt.ne').symm⟩

/-! ## The law -/

/-- For real logits, over any finite set of outcomes, the unshifted and the shifted softmax agree, whatever real the
    shift is. -/
theorem shift_law {ι : Type} [Fintype ι] (l : ι → ℝ) (M : ℝ) (q : ι) :
    Ideal.exp (l q : EReal) * Ideal.div 1 (∑ q', Ideal.exp (l q' : EReal))
      = Ideal.div (Ideal.exp ((l q : EReal) - (M : EReal))) (0 + ∑ q', Ideal.exp ((l q' : EReal) - (M : EReal))) := by
  have hS : (∑ q', Ideal.exp (l q' : EReal)) = ((∑ q', Real.exp (l q') : ℝ) : EReal) := by
    rw [coe_sum]; rfl
  have hS' : (∑ q', Ideal.exp ((l q' : EReal) - (M : EReal))) = ((∑ q', Real.exp (l q' - M) : ℝ) : EReal) := by
    rw [coe_sum]
    exact Finset.sum_congr rfl fun q' _ => by rw [← EReal.coe_sub]; rfl
  have hpos : (0 : ℝ) < ∑ q', Real.exp (l q') :=
    Finset.sum_pos (fun i _ => Real.exp_pos _) ⟨q, Finset.mem_univ _⟩
  have hpos' : (0 : ℝ) < ∑ q', Real.exp (l q' - M) :=
    Finset.sum_pos (fun i _ => Real.exp_pos _) ⟨q, Finset.mem_univ _⟩
  have hfac : (∑ q', Real.exp (l q' - M)) = (∑ q', Real.exp (l q')) * Real.exp (-M) := by
    rw [Finset.sum_mul]
    exact Finset.sum_congr rfl fun i _ => by rw [sub_eq_add_neg, Real.exp_add]
  have hreal : Real.exp (l q) * (1 / ∑ q', Real.exp (l q'))
      = Real.exp (l q - M) * (1 / ∑ q', Real.exp (l q' - M)) := by
    have he : Real.exp (-M) ≠ 0 := (Real.exp_pos _).ne'
    have hs : (∑ q', Real.exp (l q')) ≠ 0 := hpos.ne'
    rw [hfac, sub_eq_add_neg, Real.exp_add]
    field_simp
  rw [hS, zero_add, hS', Ideal.div_coe hpos.ne', Ideal.div_coe hpos'.ne', ← EReal.coe_sub]
  rw [Ideal.exp_coe, Ideal.exp_coe, one_mul, ← EReal.coe_mul, ← EReal.coe_mul, hreal]

/-- So a row of reals under real parameters has the same probabilities either way. -/
theorem probUnshifted_eq_probShifted {x : Fin 1024 → EReal} {W1 : Fin 1024 → Fin 64 → EReal} {b1 : Fin 64 → EReal}
    {W2 : Fin 64 → Fin 16384 → EReal} {b2 : Fin 16384 → EReal}
    (hx : ∀ d, ∃ r : ℝ, x d = r) (hW1 : ∀ d k, ∃ r : ℝ, W1 d k = r) (hb1 : ∀ k, ∃ r : ℝ, b1 k = r)
    (hW2 : ∀ k q, ∃ r : ℝ, W2 k q = r) (hb2 : ∀ q, ∃ r : ℝ, b2 q = r) (q : Fin 16384) :
    probUnshifted x W1 b1 W2 b2 q = probShifted x W1 b1 W2 b2 q := by
  choose l hl using logit_real hx hW1 hb1 hW2 hb2
  have hfun : logit x W1 b1 W2 b2 = fun q => (l q : EReal) := funext hl
  obtain ⟨M, hM⟩ := foldMax_real l
  unfold probUnshifted probShifted rowMax
  rw [sum8_eq, hfun, hM]
  exact shift_law l M q

end Cert.RowSoftmax

end
-- ==== Proof.ColumnStretches.lean ====
/-
  A block of 256 rows and 16384 columns that is written in column stretches of 2048.

  The block is first filled with values `E`, one stretch at a time. Then the stretches are visited again from the
  left: each is read back and written again with every row multiplied by that row's factor `ρ`. While this goes
  on the block holds the rescaled values to the left of the stretch being visited and the old values from there
  on; that is the invariant, and one visit moves its boundary 2048 columns to the right. What a read-back sees is
  the old values, because the stretch it reads has not been visited yet.
-/
import Idealize.ShloMosaic.Lib.Pipeline.Value
import Idealize.ShloMosaic.Lib.ValueIdx
import Idealize.ShloMosaic.PureOps.Ideal.Laws

noncomputable section

namespace Cert.ColumnStretches

open Idealize.ShloMosaic Idealize.ShloMosaic.View Idealize.ShloMosaic.ValueIdx

/-- The block. -/
abbrev Blk : Shape := ⟨2, ![256, 16384]⟩

/-- A column of the block lies in the stretch that starts at column `o` exactly when it is one of the 2048
    columns from `o` on. -/
theorem mem_stretch {o : ℕ} {inb : ∀ a, (![0, o] : Fin 2 → ℕ) a + (![256, 2048] : Fin 2 → ℕ) a ≤ Blk.size a} (y : Blk.Idx) :
    y ∈ (Rect.unit (s := Blk) ![0, o] ![256, 2048] inb).set ↔ o ≤ (y 1).val ∧ (y 1).val < o + 2048 := by
  rw [Rect.mem_set_unit]
  constructor
  · intro h; exact h 1
  · intro h a
    match a with
    | ⟨0, _⟩ => exact ⟨Nat.zero_le _, by have := idx2_lt0 y; show (y 0).val < 0 + 256; omega⟩
    | ⟨1, _⟩ => exact h

/-- One visit, at an entry of the visited stretch: it holds the old value times the row's factor. -/
theorem rescale_hit {sig : RefSig} {κ : Kind} {sp : Space} (v : View sig κ sp Blk .f32)
    (L : List (Piece (Elt Ideal) Blk .f32)) (o : ℕ)
    (inb : ∀ a, (![0, o] : Fin 2 → ℕ) a + (![256, 2048] : Fin 2 → ℕ) a ≤ Blk.size a)
    (E : Blk.Idx → EReal) (ρ : Fin 256 → EReal)
    (w : (Rect.unit (s := Blk) ![0, o] ![256, 2048] inb).shape.Idx → EReal)
    (hw : ∀ x, w x = v.readCov L (Rect.unit (s := Blk) ![0, o] ![256, 2048] inb).toLoadRect x * ρ ⟨(x 0).val, (x 0).isLt⟩)
    (hinv : ∀ y : Blk.Idx, canon L y = if (y 1).val < o then E y * ρ ⟨(y 0).val, (y 0).isLt⟩ else E y)
    (x : (Rect.unit (s := Blk) ![0, o] ![256, 2048] inb).shape.Idx) :
    canon ((⟨Rect.unit (s := Blk) ![0, o] ![256, 2048] inb, w⟩ : Piece (Elt Ideal) Blk .f32) :: L)
        ((Rect.unit (s := Blk) ![0, o] ![256, 2048] inb).emb x)
      = E ((Rect.unit (s := Blk) ![0, o] ![256, 2048] inb).emb x) * ρ ⟨(x 0).val, (x 0).isLt⟩ := by
  have hlast : canon (Val := Elt Ideal) ((⟨Rect.unit (s := Blk) ![0, o] ![256, 2048] inb, w⟩ : Piece (Elt Ideal) Blk .f32) :: L)
      ((Rect.unit (s := Blk) ![0, o] ![256, 2048] inb).emb x) = w x :=
    canon_cons_emb (Val := Elt Ideal) (e := .f32) (Rect.unit (s := Blk) ![0, o] ![256, 2048] inb) w L x
  rw [hlast, hw, readCov_eq_canon' (Val := Elt Ideal)]
  show canon L ((Rect.unit (s := Blk) ![0, o] ![256, 2048] inb).emb x) * _ = _
  rw [hinv, if_neg (show ¬ (((Rect.unit (s := Blk) ![0, o] ![256, 2048] inb).emb x) 1).val < o from by
    show ¬ (o + 1 * (x 1).val < o); omega)]

/-- One visit. Before it the block holds the rescaled values left of column `o` and the old ones from `o` on;
    the stretch at `o` is written with what a read-back of it holds, row by row times the row's factor; after it the
    boundary stands at `o + 2048`. -/
theorem rescale_step {sig : RefSig} {κ : Kind} {sp : Space} (v : View sig κ sp Blk .f32)
    (L : List (Piece (Elt Ideal) Blk .f32)) (o : ℕ)
    (inb : ∀ a, (![0, o] : Fin 2 → ℕ) a + (![256, 2048] : Fin 2 → ℕ) a ≤ Blk.size a)
    (E : Blk.Idx → EReal) (ρ : Fin 256 → EReal)
    (w : (Rect.unit (s := Blk) ![0, o] ![256, 2048] inb).shape.Idx → EReal)
    (hw : ∀ x, w x = v.readCov L (Rect.unit (s := Blk) ![0, o] ![256, 2048] inb).toLoadRect x * ρ ⟨(x 0).val, (x 0).isLt⟩)
    (hinv : ∀ y : Blk.Idx, canon L y = if (y 1).val < o then E y * ρ ⟨(y 0).val, (y 0).isLt⟩ else E y)
    (y : Blk.Idx) :
    canon ((⟨Rect.unit (s := Blk) ![0, o] ![256, 2048] inb, w⟩ : Piece (Elt Ideal) Blk .f32) :: L) y
      = if (y 1).val < o + 2048 then E y * ρ ⟨(y 0).val, (y 0).isLt⟩ else E y := by
  by_cases hy : o ≤ (y 1).val ∧ (y 1).val < o + 2048
  · have hy0 : (y 0).val < 256 := idx2_lt0 y
    have hx : (Rect.unit (s := Blk) ![0, o] ![256, 2048] inb).emb
        (ix2 (⟨(y 0).val, hy0⟩ : Fin 256) (⟨(y 1).val - o, by omega⟩ : Fin 2048)) = y :=
      funext fun a => Fin.ext (by
        match a with
        | ⟨0, _⟩ => show 0 + 1 * (y 0).val = (y 0).val; omega
        | ⟨1, _⟩ => show o + 1 * ((y 1).val - o) = (y 1).val; omega)
    have hit := rescale_hit v L o inb E ρ w hw hinv (ix2 (⟨(y 0).val, hy0⟩ : Fin 256) (⟨(y 1).val - o, by omega⟩ : Fin 2048))
    rw [hx] at hit
    rw [if_pos hy.2]
    exact hit
  · have hnm : y ∉ (Rect.unit (s := Blk) ![0, o] ![256, 2048] inb).set := by
      rw [mem_stretch]; exact hy
    have hoff : canon (Val := Elt Ideal) ((⟨Rect.unit (s := Blk) ![0, o] ![256, 2048] inb, w⟩ : Piece (Elt Ideal) Blk .f32) :: L) y
        = canon (Val := Elt Ideal) L y :=
      canon_cons_of_not_mem (Val := Elt Ideal) (e := .f32)
        (⟨Rect.unit (s := Blk) ![0, o] ![256, 2048] inb, w⟩ : Piece (Elt Ideal) Blk .f32) L hnm
    rw [hoff, hinv]
    by_cases h1 : (y 1).val < o
    · rw [if_pos h1, if_pos (by omega)]
    · rw [if_neg h1, if_neg (fun h2 => hy ⟨by omega, h2⟩)]

/-- A stretch times the column of row factors, read at an entry: the entry times its row's factor. -/
theorem scale_apply (r : FVec Ideal ⟨2, ![256, 1]⟩ .f32) (u : (⟨2, ![256, 2048]⟩ : Shape).Idx → EReal)
    (hc : (⟨2, ![256, 2048]⟩ : Shape).ShapeCasts ⟨2, ![256, 2048]⟩) (hb : (⟨2, ![256, 1]⟩ : Shape).Broadcasts ⟨2, ![256, 2048]⟩)
    (x : (⟨2, ![256, 2048]⟩ : Shape).Idx) :
    mulf (F := Ideal) (φ := .f32) (shapeCast ⟨2, ![256, 2048]⟩ u hc) (broadcastTo ⟨2, ![256, 2048]⟩ r hb) x
      = u x * r (ix2 (⟨(x 0).val, (x 0).isLt⟩ : Fin 256) (0 : Fin 1)) := by
  show (shapeCast ⟨2, ![256, 2048]⟩ u hc) x * (broadcastTo ⟨2, ![256, 2048]⟩ r hb) x = _
  rw [shapeCast_self, broadcastTo_apply r hb x (ix2 (⟨(x 0).val, (x 0).isLt⟩ : Fin 256) (0 : Fin 1)) (fun a => by
    match a with
    | ⟨0, _⟩ => show (x 0).val = if (256 : ℕ) = 1 then 0 else (x 0).val; rw [if_neg (by decide)]
    | ⟨1, _⟩ => show 0 = if (1 : ℕ) = 1 then 0 else (x 1).val; rw [if_pos rfl])]

end Cert.ColumnStretches

end
-- ==== Proof.StretchValues.lean ====
/-
  What the body's pure terms are, entry by entry, on the extended reals.

  The hidden block is the rectified affine image of the input block: entry (p, k) is
  `max (Σ_d x (p, d) · W1 (d, k) + b1 (0, k)) 0`.  One stretch of exponentials is the exponential of the hidden block
  times a 2048-column slab of `W2` plus the matching slab of `b2`.  A stretch's row sums are plain sums over its 2048
  columns, the running total adds them one stretch after the other, and the row factor is one over the total.
  The two matrix products are read as sums over the contracted coordinate.
-/
import proofs.«120589_g17789754541001_cont_7to1_435_10_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.StretchValues

open Cert.KernelIdeal Cert.KernelIdeal.Gen Idealize.ShloMosaic Idealize.ShloMosaic.TcCoe Idealize.ShloMosaic.ValueIdx

/-! ## The two matrix products as sums over the contracted coordinate -/

theorem lhsA_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhsA_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem rhsA_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
theorem rhsA_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- The first product, into a zero accumulator, at (p, k): the sum over the 1024 input coordinates. -/
theorem matmulA_apply (x0 : FVec Ideal S256x1024 .f32) (x1 : FVec Ideal S1024x64 .f32) (p : Fin 256) (k : Fin 64) :
    matmul dot_S256x1024_S1024x64_S256x64_1_0_0_1_n_n none x0 x1 (constant S256x64 .f32 0x00000000#32) (ix2 p k)
      = ∑ d : Fin 1024, x0 (ix2 p d) * x1 (ix2 d k) := by
  simp only [matmul]
  rw [Ideal.matmul_constant_zero_apply, ← Equiv.sum_comp (ValueIdx.contrEquiv1 dot_S256x1024_S1024x64_S256x64_1_0_0_1_n_n 1024 rfl rfl).symm]
  refine Finset.sum_congr rfl fun d _ => ?_
  have hk := ValueIdx.contrEquiv1_symm_val dot_S256x1024_S1024x64_S256x64_1_0_0_1_n_n 1024 rfl rfl d
  have el : dot_S256x1024_S1024x64_S256x64_1_0_0_1_n_n.lhsIdx (ix2 p k) ((ValueIdx.contrEquiv1 dot_S256x1024_S1024x64_S256x64_1_0_0_1_n_n 1024 rfl rfl).symm d) = ix2 p d := funext fun a => Fin.ext (by
    match a with
    | ⟨0, _⟩ => exact lhsA_0 _ _
    | ⟨1, _⟩ => exact (lhsA_1 _ _).trans hk)
  have er : dot_S256x1024_S1024x64_S256x64_1_0_0_1_n_n.rhsIdx (ix2 p k) ((ValueIdx.contrEquiv1 dot_S256x1024_S1024x64_S256x64_1_0_0_1_n_n 1024 rfl rfl).symm d) = ix2 d k := funext fun a => Fin.ext (by
    match a with
    | ⟨0, _⟩ => exact (rhsA_0 _ _).trans hk
    | ⟨1, _⟩ => exact rhsA_1 _ _)
  rw [el, er]

theorem lhsB_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhsB_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhsB_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhsB_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The second product, into a zero accumulator, at (p, q): the sum over the 64 hidden units. -/
theorem matmulB_apply (h : FVec Ideal S256x64 .f32) (w : FVec Ideal S64x2048 .f32) (p : Fin 256) (q : Fin 2048) :
    matmul dot_S256x64_S64x2048_S256x2048_1_0_0_1_n_n none h w (constant S256x2048 .f32 0x00000000#32) (ix2 p q)
      = ∑ k : Fin 64, h (ix2 p k) * w (ix2 k q) := by
  simp only [matmul]
  rw [Ideal.matmul_constant_zero_apply, ← Equiv.sum_comp (ValueIdx.contrEquiv1 dot_S256x64_S64x2048_S256x2048_1_0_0_1_n_n 64 rfl rfl).symm]
  refine Finset.sum_congr rfl fun k _ => ?_
  have hk := ValueIdx.contrEquiv1_symm_val dot_S256x64_S64x2048_S256x2048_1_0_0_1_n_n 64 rfl rfl k
  have el : dot_S256x64_S64x2048_S256x2048_1_0_0_1_n_n.lhsIdx (ix2 p q) ((ValueIdx.contrEquiv1 dot_S256x64_S64x2048_S256x2048_1_0_0_1_n_n 64 rfl rfl).symm k) = ix2 p k := funext fun a => Fin.ext (by
    match a with
    | ⟨0, _⟩ => exact lhsB_0 _ _
    | ⟨1, _⟩ => exact (lhsB_1 _ _).trans hk)
  have er : dot_S256x64_S64x2048_S256x2048_1_0_0_1_n_n.rhsIdx (ix2 p q) ((ValueIdx.contrEquiv1 dot_S256x64_S64x2048_S256x2048_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## A row vector broadcast down the rows -/

theorem rowBroadcast64_apply (b : FVec Ideal S1x64 .f32) (p : Fin 256) (k : Fin 64) :
    broadcastTo S256x64 (shapeCast S1x64 b shapeCasts_S1x64_S1x64) broadcasts_S1x64_S256x64 (ix2 p k) = b (ix2 (0 : Fin 1) k) := by
  rw [shapeCast_self, broadcastTo_apply b broadcasts_S1x64_S256x64 (ix2 p k) (ix2 (0 : Fin 1) k) (fun a => by
    match a with
    | ⟨0, _⟩ => show 0 = if (1 : ℕ) = 1 then 0 else p.val; rw [if_pos rfl]
    | ⟨1, _⟩ => show k.val = if (64 : ℕ) = 1 then 0 else k.val; rw [if_neg (by decide)])]

theorem rowBroadcast2048_apply (b : FVec Ideal S1x2048 .f32) (p : Fin 256) (q : Fin 2048) :
    broadcastTo S256x2048 (shapeCast S1x2048 b shapeCasts_S1x2048_S1x2048) broadcasts_S1x2048_S256x2048 (ix2 p q) = b (ix2 (0 : Fin 1) q) := by
  rw [shapeCast_self, broadcastTo_apply b broadcasts_S1x2048_S256x2048 (ix2 p q) (ix2 (0 : Fin 1) q) (fun a => by
    match a with
    | ⟨0, _⟩ => show 0 = if (1 : ℕ) = 1 then 0 else p.val; rw [if_pos rfl]
    | ⟨1, _⟩ => show q.val = if (2048 : ℕ) = 1 then 0 else q.val; rw [if_neg (by decide)])]

/-! ## The payloads -/

/-- The hidden block at (p, k). -/
theorem hidden_apply (v0 : FVec Ideal S256x1024 .f32) (v1 : FVec Ideal S1024x64 .f32) (v3 : FVec Ideal S1x64 .f32) (p : Fin 256) (k : Fin 64) :
    k0_pay3 (F := Ideal) v0 v1 v3 (ix2 p k)
      = max ((∑ d : Fin 1024, v0 (ix2 p d) * v1 (ix2 d k)) + v3 (ix2 (0 : Fin 1) k)) 0 := by
  unfold k0_pay3
  show max (matmul dot_S256x1024_S1024x64_S256x64_1_0_0_1_n_n none v0 v1 (constant S256x64 .f32 0x00000000#32) (ix2 p k)
      + broadcastTo S256x64 (shapeCast S1x64 v3 shapeCasts_S1x64_S1x64) broadcasts_S1x64_S256x64 (ix2 p k))
    (Ideal.ofBits .f32 0x00000000#32) = _
  rw [matmulA_apply, rowBroadcast64_apply, Ideal.ofBits_zero_f32]

/-- One stretch of exponentials at (p, q). -/
theorem expStretch_apply (h : FVec Ideal S256x64 .f32) (w : FVec Ideal S64x2048 .f32) (b : FVec Ideal S1x2048 .f32) (p : Fin 256) (q : Fin 2048) :
    k0_pay7 (F := Ideal) h w b (ix2 p q)
      = Ideal.exp ((∑ k : Fin 64, h (ix2 p k) * w (ix2 k q)) + b (ix2 (0 : Fin 1) q)) := by
  unfold k0_pay7
  show Ideal.exp (matmul dot_S256x64_S64x2048_S256x2048_1_0_0_1_n_n none h w (constant S256x2048 .f32 0x00000000#32) (ix2 p q)
      + broadcastTo S256x2048 (shapeCast S1x2048 b shapeCasts_S1x2048_S1x2048) broadcasts_S1x2048_S256x2048 (ix2 p q)) = _
  rw [matmulB_apply, rowBroadcast2048_apply]

/-- The eight stretches are one function of the hidden block and the slabs. -/
theorem pay4_eq (v0 : FVec Ideal S256x1024 .f32) (v1 : FVec Ideal S1024x64 .f32) (v3 : FVec Ideal S1x64 .f32) (w : FVec Ideal S64x2048 .f32) (b : FVec Ideal S1x2048 .f32) :
    k0_pay4 (F := Ideal) v0 v1 v3 w b = k0_pay7 (k0_pay3 v0 v1 v3) w b := rfl
theorem pay5_eq (v0 : FVec Ideal S256x1024 .f32) (v1 : FVec Ideal S1024x64 .f32) (v3 : FVec Ideal S1x64 .f32) (w : FVec Ideal S64x2048 .f32) (b : FVec Ideal S1x2048 .f32) :
    k0_pay5 (F := Ideal) v0 v1 v3 w b = k0_pay7 (k0_pay3 v0 v1 v3) w b := rfl
theorem pay8_eq (h : FVec Ideal S256x64 .f32) (w : FVec Ideal S64x2048 .f32) (b : FVec Ideal S1x2048 .f32) : k0_pay8 (F := Ideal) h w b = k0_pay7 h w b := rfl
theorem pay9_eq (h : FVec Ideal S256x64 .f32) (w : FVec Ideal S64x2048 .f32) (b : FVec Ideal S1x2048 .f32) : k0_pay9 (F := Ideal) h w b = k0_pay7 h w b := rfl
theorem pay11_eq (h : FVec Ideal S256x64 .f32) (w : FVec Ideal S64x2048 .f32) (b : FVec Ideal S1x2048 .f32) : k0_pay11 (F := Ideal) h w b = k0_pay7 h w b := rfl
theorem pay12_eq (h : FVec Ideal S256x64 .f32) (w : FVec Ideal S64x2048 .f32) (b : FVec Ideal S1x2048 .f32) : k0_pay12 (F := Ideal) h w b = k0_pay7 h w b := rfl
theorem pay13_eq (h : FVec Ideal S256x64 .f32) (w : FVec Ideal S64x2048 .f32) (b : FVec Ideal S1x2048 .f32) : k0_pay13 (F := Ideal) h w b = k0_pay7 h w b := rfl

/-- A stretch's row sums, as the column of 256 totals, at row p: the sum over the stretch's 2048 columns. -/
theorem stretchSum_apply (e : FVec Ideal S256x2048 .f32) (p : Fin 256) :
    shapeCast S256x1 (multiReduction .add [1] S256 e 0x00000000#32 reduces_S256x2048_S256 (.inl rfl) rfl) shapeCasts_S256_S256x1 (ix2 p (0 : Fin 1))
      = ∑ q : Fin 2048, e (ix2 p q) := by
  rw [shapeCast_apply _ shapeCasts_S256_S256x1 (ix2 p (0 : Fin 1)) (ix1 p) (by
    rw [Shape.rowMajor_val_one, Shape.rowMajor_val_two]; show p.val = p.val * 1 + 0; omega)]
  refine (Ideal.multiReduction_add_single e 0x00000000#32 reduces_S256x2048_S256 (.inl rfl) rfl (ix1 p)).trans ?_
  refine Finset.sum_congr rfl fun q _ => congrArg e (funext fun a => Fin.ext ?_)
  match a with
  | ⟨0, _⟩ => rfl
  | ⟨1, _⟩ => rfl

/-- The row factor at row p: one over the row's total. -/
theorem recip_apply (s : FVec Ideal S256x1 .f32) (p : Fin 256) :
    k0_pay15 (F := Ideal) s (ix2 p (0 : Fin 1)) = Ideal.div 1 (s (ix2 p (0 : Fin 1))) := by
  unfold k0_pay15
  show Ideal.div (Ideal.ofBits .f32 0x3F800000#32) _ = _
  rw [Ideal.ofBits_one_f32]

/-- The running total after the first two stretches. -/
theorem total2_apply (v0 : FVec Ideal S256x1024 .f32) (v1 : FVec Ideal S1024x64 .f32) (v3 : FVec Ideal S1x64 .f32)
    (w0 : FVec Ideal S64x2048 .f32) (b0 : FVec Ideal S1x2048 .f32) (w1 : FVec Ideal S64x2048 .f32) (b1 : FVec Ideal S1x2048 .f32) (p : Fin 256) :
    k0_pay6 (F := Ideal) v0 v1 v3 w0 b0 w1 b1 (ix2 p (0 : Fin 1))
      = (0 + ∑ q : Fin 2048, k0_pay7 (k0_pay3 v0 v1 v3) w0 b0 (ix2 p q)) + ∑ q : Fin 2048, k0_pay7 (k0_pay3 v0 v1 v3) w1 b1 (ix2 p q) := by
  unfold k0_pay6
  show (Ideal.ofBits .f32 0x00000000#32 + shapeCast S256x1 (multiReduction .add [1] S256 (k0_pay4 v0 v1 v3 w0 b0) 0x00000000#32 reduces_S256x2048_S256 (.inl rfl) rfl) shapeCasts_S256_S256x1 (ix2 p (0 : Fin 1)))
      + shapeCast S256x1 (multiReduction .add [1] S256 (k0_pay5 v0 v1 v3 w1 b1) 0x00000000#32 reduces_S256x2048_S256 (.inl rfl) rfl) shapeCasts_S256_S256x1 (ix2 p (0 : Fin 1)) = _
  rw [stretchSum_apply, stretchSum_apply, Ideal.ofBits_zero_f32, pay4_eq, pay5_eq]

/-- Three more stretches onto a running total. -/
theorem total5_apply (h : FVec Ideal S256x64 .f32) (s : FVec Ideal S256x1 .f32)
    (w2 : FVec Ideal S64x2048 .f32) (b2 : FVec Ideal S1x2048 .f32) (w3 : FVec Ideal S64x2048 .f32) (b3 : FVec Ideal S1x2048 .f32)
    (w4 : FVec Ideal S64x2048 .f32) (b4 : FVec Ideal S1x2048 .f32) (p : Fin 256) :
    k0_pay10 (F := Ideal) h s w2 b2 w3 b3 w4 b4 (ix2 p (0 : Fin 1))
      = ((s (ix2 p (0 : Fin 1)) + ∑ q : Fin 2048, k0_pay7 h w2 b2 (ix2 p q)) + ∑ q : Fin 2048, k0_pay7 h w3 b3 (ix2 p q))
          + ∑ q : Fin 2048, k0_pay7 h w4 b4 (ix2 p q) := by
  unfold k0_pay10
  show ((s (ix2 p (0 : Fin 1)) + shapeCast S256x1 (multiReduction .add [1] S256 (k0_pay7 h w2 b2) 0x00000000#32 reduces_S256x2048_S256 (.inl rfl) rfl) shapeCasts_S256_S256x1 (ix2 p (0 : Fin 1)))
      + shapeCast S256x1 (multiReduction .add [1] S256 (k0_pay8 h w3 b3) 0x00000000#32 reduces_S256x2048_S256 (.inl rfl) rfl) shapeCasts_S256_S256x1 (ix2 p (0 : Fin 1)))
      + shapeCast S256x1 (multiReduction .add [1] S256 (k0_pay9 h w4 b4) 0x00000000#32 reduces_S256x2048_S256 (.inl rfl) rfl) shapeCasts_S256_S256x1 (ix2 p (0 : Fin 1)) = _
  rw [stretchSum_apply, stretchSum_apply, stretchSum_apply, pay8_eq, pay9_eq]

/-- The last three stretches onto the running total. -/
theorem total8_apply (h : FVec Ideal S256x64 .f32) (s : FVec Ideal S256x1 .f32)
    (w5 : FVec Ideal S64x2048 .f32) (b5 : FVec Ideal S1x2048 .f32) (w6 : FVec Ideal S64x2048 .f32) (b6 : FVec Ideal S1x2048 .f32)
    (w7 : FVec Ideal S64x2048 .f32) (b7 : FVec Ideal S1x2048 .f32) (p : Fin 256) :
    k0_pay14 (F := Ideal) h s w5 b5 w6 b6 w7 b7 (ix2 p (0 : Fin 1))
      = ((s (ix2 p (0 : Fin 1)) + ∑ q : Fin 2048, k0_pay7 h w5 b5 (ix2 p q)) + ∑ q : Fin 2048, k0_pay7 h w6 b6 (ix2 p q))
          + ∑ q : Fin 2048, k0_pay7 h w7 b7 (ix2 p q) := by
  unfold k0_pay14
  show ((s (ix2 p (0 : Fin 1)) + shapeCast S256x1 (multiReduction .add [1] S256 (k0_pay11 h w5 b5) 0x00000000#32 reduces_S256x2048_S256 (.inl rfl) rfl) shapeCasts_S256_S256x1 (ix2 p (0 : Fin 1)))
      + shapeCast S256x1 (multiReduction .add [1] S256 (k0_pay12 h w6 b6) 0x00000000#32 reduces_S256x2048_S256 (.inl rfl) rfl) shapeCasts_S256_S256x1 (ix2 p (0 : Fin 1)))
      + shapeCast S256x1 (multiReduction .add [1] S256 (k0_pay13 h w7 b7) 0x00000000#32 reduces_S256x2048_S256 (.inl rfl) rfl) shapeCasts_S256_S256x1 (ix2 p (0 : Fin 1)) = _
  rw [stretchSum_apply, stretchSum_apply, stretchSum_apply, pay11_eq, pay12_eq, pay13_eq]

end Cert.KernelIdeal.StretchValues

end
-- ==== Proof.KernelBlock.lean ====
/-
  What the body leaves in one block of the output, entry by entry.

  The body fills the block's eight column stretches with the exponentials of the logits, adding up each row's
  total as it goes, and then visits the stretches again, reading each back and writing it again times the
  reciprocal of its row's total.  So entry (p, q) of the block ends as the exponential of row p's logit q times
  one over the row's total taken stretch by stretch: the unshifted softmax of row p of the input block.
-/
import proofs.«120589_g17789754541001_cont_7to1_435_10_alg».proof.Proof.Gen.KernelIdeal.Frame
import proofs.«120589_g17789754541001_cont_7to1_435_10_alg».proof.Proof.ColumnStretches
import proofs.«120589_g17789754541001_cont_7to1_435_10_alg».proof.Proof.StretchValues
import proofs.«120589_g17789754541001_cont_7to1_435_10_alg».proof.Proof.RowSoftmax
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx Cert.ColumnStretches Cert.KernelIdeal.StretchValues

/-! ## The row, the parameters and the exponentials, as functions of coordinates -/

section Spec

variable (x0 : Vec Ideal S256x1024 .f32) (x1 : Vec Ideal S1024x64 .f32) (x2 : Vec Ideal S1x64 .f32)
  (x3 : Vec Ideal S64x16384 .f32) (x4 : Vec Ideal S1x16384 .f32)

/-- Row p of the input block. -/
def rowOf (p : Fin 256) : Fin 1024 → EReal := fun d => x0 (ix2 p d)
/-- The parameters by coordinates. -/
def w1Of : Fin 1024 → Fin 64 → EReal := fun d k => x1 (ix2 d k)
def b1Of : Fin 64 → EReal := fun k => x2 (ix2 (0 : Fin 1) k)
def w2Of : Fin 64 → Fin 16384 → EReal := fun k q => x3 (ix2 k q)
def b2Of : Fin 16384 → EReal := fun q => x4 (ix2 (0 : Fin 1) q)

/-- The exponential of row p's logit q. -/
def expAt (p : Fin 256) (q : Fin 16384) : EReal :=
  Ideal.exp (Cert.RowSoftmax.logit (rowOf x0 p) (w1Of x1) (b1Of x2) (w2Of x3) (b2Of x4) q)

end Spec

section Body

variable (c : Dev nD) (i : grid0.Coords) (arg1 : Memref sig .tc .vmem S256x1024 .f32) (harg1 : arg1.IsWhole) (arg2 : Memref sig .tc .vmem S1024x64 .f32) (harg2 : arg2.IsWhole) (arg3 : Memref sig .tc .vmem S1x64 .f32) (harg3 : arg3.IsWhole) (arg4 : Memref sig .tc .vmem S64x16384 .f32) (harg4 : arg4.IsWhole) (arg5 : Memref sig .tc .vmem S1x16384 .f32) (harg5 : arg5.IsWhole) (arg6 : Memref sig .tc .vmem S256x16384 .f32) (harg6 : arg6.IsWhole)
  (x0 : Vec Ideal S256x1024 .f32) (x1 : Vec Ideal S1024x64 .f32) (x2 : Vec Ideal S1x64 .f32)
  (x3 : Vec Ideal S64x16384 .f32) (x4 : Vec Ideal S1x16384 .f32)

/-! ## What the loads of the input buffers read -/

theorem hz : (![0, 0] : Fin 2 → Nat) = fun _ => 0 := funext fun a => by fin_cases a <;> rfl

theorem load0 : View.readAt (Elt Ideal) arg1.view (Rect.unit (s := S256x1024) ![0, 0] S256x1024.size inb_S256x1024_S256x1024_0_0).toLoadRect (harg1.unread x0) = x0 := by
  rw [View.readAt_eq_ld, harg1.read_unread, View.ld_unit_zero (S := S256x1024) hz]
theorem load1 : View.readAt (Elt Ideal) arg2.view (Rect.unit (s := S1024x64) ![0, 0] S1024x64.size inb_S1024x64_S1024x64_0_0).toLoadRect (harg2.unread x1) = x1 := by
  rw [View.readAt_eq_ld, harg2.read_unread, View.ld_unit_zero (S := S1024x64) hz]
theorem load2 : View.readAt (Elt Ideal) arg3.view (Rect.unit (s := S1x64) ![0, 0] S1x64.size inb_S1x64_S1x64_0_0).toLoadRect (harg3.unread x2) = x2 := by
  rw [View.readAt_eq_ld, harg3.read_unread, View.ld_unit_zero (S := S1x64) hz]

/-- A 2048-column slab of the second layer's weights, at (k, q): the weight at column `o + q`. -/
theorem slabW_apply (o : ℕ) (inb : ∀ a, (![0, o] : Fin 2 → ℕ) a + S64x2048.size a ≤ S64x16384.size a) (k : Fin 64) (q : Fin 2048)
    (hq : o + q.val < 16384) :
    View.readAt (Elt Ideal) arg4.view (Rect.unit (s := S64x16384) ![0, o] S64x2048.size inb).toLoadRect (harg4.unread x3) (ix2 k q)
      = x3 (ix2 k (⟨o + q.val, hq⟩ : Fin 16384)) := by
  rw [View.readAt_eq_ld, harg4.read_unread]
  show x3 ((Rect.unit (s := S64x16384) ![0, o] S64x2048.size inb).idx (ix2 k q)) = _
  refine congrArg x3 (funext fun a => Fin.ext ?_)
  match a with
  | ⟨0, _⟩ => show 0 + 1 * k.val = k.val; omega
  | ⟨1, _⟩ => show o + 1 * q.val = o + q.val; omega

/-- The matching slab of the second layer's bias. -/
theorem slabB_apply (o : ℕ) (inb : ∀ a, (![0, o] : Fin 2 → ℕ) a + S1x2048.size a ≤ S1x16384.size a) (q : Fin 2048)
    (hq : o + q.val < 16384) :
    View.readAt (Elt Ideal) arg5.view (Rect.unit (s := S1x16384) ![0, o] S1x2048.size inb).toLoadRect (harg5.unread x4) (ix2 (0 : Fin 1) q)
      = x4 (ix2 (0 : Fin 1) (⟨o + q.val, hq⟩ : Fin 16384)) := by
  rw [View.readAt_eq_ld, harg5.read_unread]
  show x4 ((Rect.unit (s := S1x16384) ![0, o] S1x2048.size inb).idx (ix2 (0 : Fin 1) q)) = _
  refine congrArg x4 (funext fun a => Fin.ext ?_)
  match a with
  | ⟨0, _⟩ => show 0 + 1 * 0 = 0; omega
  | ⟨1, _⟩ => show o + 1 * q.val = o + q.val; omega

/-! ## The hidden block and one stretch of exponentials -/

theorem hidden_eq (p : Fin 256) (k : Fin 64) :
    (kernelRun0_A.sl.r (F := Ideal) c arg1 harg1 arg2 harg2 arg3 harg3 x0 x1 x2) (ix2 p k) = Cert.RowSoftmax.hidden (rowOf x0 p) (w1Of x1) (b1Of x2) k := by
  unfold kernelRun0_A.sl.r
  rw [load0, load1, load2, hidden_apply]
  rfl

/-- The stretch of exponentials that starts at column `o`, at (p, q): the exponential of row p's logit `o + q`. -/
theorem expPiece_apply (h : FVec Ideal S256x64 .f32)
    (hh : ∀ (p : Fin 256) (k : Fin 64), h (ix2 p k) = Cert.RowSoftmax.hidden (rowOf x0 p) (w1Of x1) (b1Of x2) k)
    (o : ℕ) (inbW : ∀ a, (![0, o] : Fin 2 → ℕ) a + S64x2048.size a ≤ S64x16384.size a)
    (inbB : ∀ a, (![0, o] : Fin 2 → ℕ) a + S1x2048.size a ≤ S1x16384.size a) (p : Fin 256) (q : Fin 2048) (hq : o + q.val < 16384) :
    k0_pay7 (F := Ideal) h
        (View.readAt (Elt Ideal) arg4.view (Rect.unit (s := S64x16384) ![0, o] S64x2048.size inbW).toLoadRect (harg4.unread x3))
        (View.readAt (Elt Ideal) arg5.view (Rect.unit (s := S1x16384) ![0, o] S1x2048.size inbB).toLoadRect (harg5.unread x4)) (ix2 p q)
      = expAt x0 x1 x2 x3 x4 p ⟨o + q.val, hq⟩ := by
  rw [expStretch_apply, slabB_apply arg5 harg5 x4 o inbB q hq]
  unfold expAt Cert.RowSoftmax.logit
  refine congrArg (fun s => Ideal.exp (s + _)) (Finset.sum_congr rfl fun k _ => ?_)
  rw [hh p k, slabW_apply arg4 harg4 x3 o inbW k q hq]
  rfl

/-! ## The block before the second pass: the exponentials -/

/-- What the first pass leaves in the block. -/
def old : S256x16384.Idx → EReal := View.canon (kernelRun0_A.sl.H5_8 (F := Ideal) c arg1 harg1 arg2 harg2 arg3 harg3 arg4 harg4 arg5 harg5 x0 x1 x2 x3 x4)

/-- The row factors. -/
def factor : Fin 256 → EReal := fun p => (kernelRun0_A.sl.r_4 (F := Ideal) c arg1 harg1 arg2 harg2 arg3 harg3 arg4 harg4 arg5 harg5 x0 x1 x2 x3 x4) (ix2 p (0 : Fin 1))

/-- A stretch read back and rescaled, at an entry: the entry read back times its row's factor. -/
theorem scaled_apply (u : S256x2048.Idx → EReal) (x : S256x2048.Idx) :
    mulf (F := Ideal) (φ := .f32) (shapeCast S256x2048 u shapeCasts_S256x2048_S256x2048) (broadcastTo S256x2048 (kernelRun0_A.sl.r_4 (F := Ideal) c arg1 harg1 arg2 harg2 arg3 harg3 arg4 harg4 arg5 harg5 x0 x1 x2 x3 x4) broadcasts_S256x1_S256x2048) x
      = u x * factor c arg1 harg1 arg2 harg2 arg3 harg3 arg4 harg4 arg5 harg5 x0 x1 x2 x3 x4 ⟨(x 0).val, (x 0).isLt⟩ :=
  scale_apply (kernelRun0_A.sl.r_4 (F := Ideal) c arg1 harg1 arg2 harg2 arg3 harg3 arg4 harg4 arg5 harg5 x0 x1 x2 x3 x4) u shapeCasts_S256x2048_S256x2048 broadcasts_S256x1_S256x2048 x

/-! ## The second pass, one visit after the other -/

theorem inv0 (y : S256x16384.Idx) :
    View.canon (kernelRun0_A.sl.H5_8 (F := Ideal) c arg1 harg1 arg2 harg2 arg3 harg3 arg4 harg4 arg5 harg5 x0 x1 x2 x3 x4) y = if (y 1).val < 0 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  rw [if_neg (Nat.not_lt_zero _)]; rfl

theorem inv1 (y : S256x16384.Idx) :
    View.canon (kernelRun0_A.sl.H5_9 (F := Ideal) c arg1 harg1 arg2 harg2 arg3 harg3 arg4 harg4 arg5 harg5 arg6 x0 x1 x2 x3 x4) y = if (y 1).val < 2048 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_9
  exact rescale_step arg6.view (kernelRun0_A.sl.H5_8 (F := Ideal) c arg1 harg1 arg2 harg2 arg3 harg3 arg4 harg4 arg5 harg5 x0 x1 x2 x3 x4) 0 inb_S256x16384_S256x2048_0_0 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv0 c arg1 harg1 arg2 harg2 arg3 harg3 arg4 harg4 arg5 harg5 x0 x1 x2 x3 x4) y

theorem inv2 (y : S256x16384.Idx) :
    View.canon (kernelRun0_A.sl.H5_10 (F := Ideal) c arg1 harg1 arg2 harg2 arg3 harg3 arg4 harg4 arg5 harg5 arg6 x0 x1 x2 x3 x4) y = if (y 1).val < 4096 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_10
  exact rescale_step arg6.view (kernelRun0_A.sl.H5_9 (F := Ideal) c arg1 harg1 arg2 harg2 arg3 harg3 arg4 harg4 arg5 harg5 arg6 x0 x1 x2 x3 x4) 2048 inb_S256x16384_S256x2048_0_2048 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv1 c arg1 harg1 arg2 harg2 arg3 harg3 arg4 harg4 arg5 harg5 arg6 x0 x1 x2 x3 x4) y

theorem inv3 (y : S256x16384.Idx) :
    View.canon (kernelRun0_A.sl.H5_11 (F := Ideal) c arg1 harg1 arg2 harg2 arg3 harg3 arg4 harg4 arg5 harg5 arg6 x0 x1 x2 x3 x4) y = if (y 1).val < 6144 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_11
  exact rescale_step arg6.view (kernelRun0_A.sl.H5_10 (F := Ideal) c arg1 harg1 arg2 harg2 arg3 harg3 arg4 harg4 arg5 harg5 arg6 x0 x1 x2 x3 x4) 4096 inb_S256x16384_S256x2048_0_4096 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv2 c arg1 harg1 arg2 harg2 arg3 harg3 arg4 harg4 arg5 harg5 arg6 x0 x1 x2 x3 x4) y

theorem inv4 (y : S256x16384.Idx) :
    View.canon (kernelRun0_A.sl.H5_12 (F := Ideal) c arg1 harg1 arg2 harg2 arg3 harg3 arg4 harg4 arg5 harg5 arg6 x0 x1 x2 x3 x4) y = if (y 1).val < 8192 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_12
  exact rescale_step arg6.view (kernelRun0_A.sl.H5_11 (F := Ideal) c arg1 harg1 arg2 harg2 arg3 harg3 arg4 harg4 arg5 harg5 arg6 x0 x1 x2 x3 x4) 6144 inb_S256x16384_S256x2048_0_6144 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv3 c arg1 harg1 arg2 harg2 arg3 harg3 arg4 harg4 arg5 harg5 arg6 x0 x1 x2 x3 x4) y

theorem inv5 (y : S256x16384.Idx) :
    View.canon (kernelRun0_A.sl.H5_13 (F := Ideal) c arg1 harg1 arg2 harg2 arg3 harg3 arg4 harg4 arg5 harg5 arg6 x0 x1 x2 x3 x4) y = if (y 1).val < 10240 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_13
  exact rescale_step arg6.view (kernelRun0_A.sl.H5_12 (F := Ideal) c arg1 harg1 arg2 harg2 arg3 harg3 arg4 harg4 arg5 harg5 arg6 x0 x1 x2 x3 x4) 8192 inb_S256x16384_S256x2048_0_8192 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv4 c arg1 harg1 arg2 harg2 arg3 harg3 arg4 harg4 arg5 harg5 arg6 x0 x1 x2 x3 x4) y

theorem inv6 (y : S256x16384.Idx) :
    View.canon (kernelRun0_A.sl.H5_14 (F := Ideal) c arg1 harg1 arg2 harg2 arg3 harg3 arg4 harg4 arg5 harg5 arg6 x0 x1 x2 x3 x4) y = if (y 1).val < 12288 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_14
  exact rescale_step arg6.view (kernelRun0_A.sl.H5_13 (F := Ideal) c arg1 harg1 arg2 harg2 arg3 harg3 arg4 harg4 arg5 harg5 arg6 x0 x1 x2 x3 x4) 10240 inb_S256x16384_S256x2048_0_10240 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv5 c arg1 harg1 arg2 harg2 arg3 harg3 arg4 harg4 arg5 harg5 arg6 x0 x1 x2 x3 x4) y

theorem inv7 (y : S256x16384.Idx) :
    View.canon (kernelRun0_A.sl.H5_15 (F := Ideal) c arg1 harg1 arg2 harg2 arg3 harg3 arg4 harg4 arg5 harg5 arg6 x0 x1 x2 x3 x4) y = if (y 1).val < 14336 then old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ else old c arg1 harg1 arg2 harg2 arg3 harg3 arg4 harg4 arg5 harg5 x0 x1 x2 x3 x4 y := by
  unfold kernelRun0_A.sl.H5_15
  exact rescale_step arg6.view (kernelRun0_A.sl.H5_14 (F := Ideal) c arg1 harg1 arg2 harg2 arg3 harg3 arg4 harg4 arg5 harg5 arg6 x0 x1 x2 x3 x4) 12288 inb_S256x16384_S256x2048_0_12288 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv6 c arg1 harg1 arg2 harg2 arg3 harg3 arg4 harg4 arg5 harg5 arg6 x0 x1 x2 x3 x4) y

/-- After the eighth visit every entry of the block is its exponential times its row's factor. -/
theorem block_scaled (y : S256x16384.Idx) :
    out0_A_5 (F := Ideal) c i arg1 harg1 arg2 harg2 arg3 harg3 arg4 harg4 arg5 harg5 arg6 harg6 x0 x1 x2 x3 x4 y = old c arg1 harg1 arg2 harg2 arg3 harg3 arg4 harg4 arg5 harg5 x0 x1 x2 x3 x4 y * factor c arg1 harg1 arg2 harg2 arg3 harg3 arg4 harg4 arg5 harg5 x0 x1 x2 x3 x4 ⟨(y 0).val, (y 0).isLt⟩ := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  refine (rescale_step arg6.view (kernelRun0_A.sl.H5_15 (F := Ideal) c arg1 harg1 arg2 harg2 arg3 harg3 arg4 harg4 arg5 harg5 arg6 x0 x1 x2 x3 x4) 14336 inb_S256x16384_S256x2048_0_14336 (old c arg1 harg1 arg2 harg2 arg3 harg3 arg4 harg4 arg5 harg5 x0 x1 x2 x3 x4) (factor c arg1 harg1 arg2 harg2 arg3 harg3 arg4 harg4 arg5 harg5 x0 x1 x2 x3 x4) _
    (fun x => scaled_apply c arg1 harg1 arg2 harg2 arg3 harg3 arg4 harg4 arg5 harg5 x0 x1 x2 x3 x4 _ x) (inv7 c arg1 harg1 arg2 harg2 arg3 harg3 arg4 harg4 arg5 harg5 arg6 x0 x1 x2 x3 x4) y).trans ?_
  rw [if_pos (show (y 1).val < 14336 + 2048 from idx2_lt1 y)]

/-! ## The first pass leaves the exponentials, the row factor is one over the row's total -/

/-- The hidden block, spelt through the loads, is the specification's hidden row. -/
theorem hidden_loads (p : Fin 256) (k : Fin 64) :
    (k0_pay3 (F := Ideal) (View.readAt (Elt Ideal) arg1.view (Rect.unit (s := S256x1024) ![0, 0] S256x1024.size inb_S256x1024_S256x1024_0_0).toLoadRect (harg1.unread x0)) (View.readAt (Elt Ideal) arg2.view (Rect.unit (s := S1024x64) ![0, 0] S1024x64.size inb_S1024x64_S1024x64_0_0).toLoadRect (harg2.unread x1)) (View.readAt (Elt Ideal) arg3.view (Rect.unit (s := S1x64) ![0, 0] S1x64.size inb_S1x64_S1x64_0_0).toLoadRect (harg3.unread x2))) (ix2 p k) = Cert.RowSoftmax.hidden (rowOf x0 p) (w1Of x1) (b1Of x2) k := by
  rw [load0, load1, load2, hidden_apply]
  rfl

/-- The exponential at an entry of the block, by its coordinates. -/
def expOf (y : S256x16384.Idx) : EReal := expAt x0 x1 x2 x3 x4 ⟨(y 0).val, (y 0).isLt⟩ ⟨(y 1).val, (y 1).isLt⟩

/-- The stretch of exponentials written at column `o` is that function on its 2048 columns. -/
theorem piece_agrees (o : ℕ) (inbO : ∀ a, (![0, o] : Fin 2 → ℕ) a + S256x2048.size a ≤ S256x16384.size a)
    (inbW : ∀ a, (![0, o] : Fin 2 → ℕ) a + S64x2048.size a ≤ S64x16384.size a)
    (inbB : ∀ a, (![0, o] : Fin 2 → ℕ) a + S1x2048.size a ≤ S1x16384.size a) (ho : o + 2048 ≤ 16384)
    (x : (Rect.unit (s := S256x16384) ![0, o] S256x2048.size inbO).shape.Idx) :
    k0_pay7 (F := Ideal) (k0_pay3 (F := Ideal) (View.readAt (Elt Ideal) arg1.view (Rect.unit (s := S256x1024) ![0, 0] S256x1024.size inb_S256x1024_S256x1024_0_0).toLoadRect (harg1.unread x0)) (View.readAt (Elt Ideal) arg2.view (Rect.unit (s := S1024x64) ![0, 0] S1024x64.size inb_S1024x64_S1024x64_0_0).toLoadRect (harg2.unread x1)) (View.readAt (Elt Ideal) arg3.view (Rect.unit (s := S1x64) ![0, 0] S1x64.size inb_S1x64_S1x64_0_0).toLoadRect (harg3.unread x2)))
        (View.readAt (Elt Ideal) arg4.view (Rect.unit (s := S64x16384) ![0, o] S64x2048.size inbW).toLoadRect (harg4.unread x3))
        (View.readAt (Elt Ideal) arg5.view (Rect.unit (s := S1x16384) ![0, o] S1x2048.size inbB).toLoadRect (harg5.unread x4)) x
      = expOf x0 x1 x2 x3 x4 ((Rect.unit (s := S256x16384) ![0, o] S256x2048.size inbO).emb x) := by
  obtain ⟨p, q, rfl⟩ : ∃ (p : Fin 256) (q : Fin 2048), x = ix2 p q := ⟨x 0, x 1, eq_ix2 x⟩
  have hq : o + q.val < 16384 := by have := q.isLt; omega
  refine (expPiece_apply arg4 harg4 arg5 harg5 x0 x1 x2 x3 x4 _ (hidden_loads arg1 harg1 arg2 harg2 arg3 harg3 x0 x1 x2) o inbW inbB p q hq).trans ?_
  unfold expOf
  exact congr (congrArg (expAt x0 x1 x2 x3 x4) (Fin.ext (show p.val = 0 + 1 * p.val by omega)))
    (Fin.ext (show o + q.val = o + 1 * q.val by omega))

/-- The first pass leaves the exponentials. -/
theorem old_apply (y : S256x16384.Idx) : old c arg1 harg1 arg2 harg2 arg3 harg3 arg4 harg4 arg5 harg5 x0 x1 x2 x3 x4 y = expOf x0 x1 x2 x3 x4 y := by
  unfold old
  refine View.canon_apply_of_pieces (Val := Elt Ideal) (e := .f32) (expOf x0 x1 x2 x3 x4) _ ?_ y
    (View.cover_of_tiledL (kernelRun0_A.sl.H5_8 (F := Ideal) c arg1 harg1 arg2 harg2 arg3 harg3 arg4 harg4 arg5 harg5 x0 x1 x2 x3 x4) S256x2048.size (by sl_kernel_rfl) y)
  unfold kernelRun0_A.sl.H5_8 kernelRun0_A.sl.r
  intro pc hpc x
  simp only [List.mem_cons, List.not_mem_nil, or_false] at hpc
  rcases hpc with rfl | rfl | rfl | rfl | rfl | rfl | rfl | rfl
  · exact piece_agrees arg1 harg1 arg2 harg2 arg3 harg3 arg4 harg4 arg5 harg5 x0 x1 x2 x3 x4 14336 inb_S256x16384_S256x2048_0_14336 inb_S64x16384_S64x2048_0_14336 inb_S1x16384_S1x2048_0_14336 (by decide) x
  · exact piece_agrees arg1 harg1 arg2 harg2 arg3 harg3 arg4 harg4 arg5 harg5 x0 x1 x2 x3 x4 12288 inb_S256x16384_S256x2048_0_12288 inb_S64x16384_S64x2048_0_12288 inb_S1x16384_S1x2048_0_12288 (by decide) x
  · exact piece_agrees arg1 harg1 arg2 harg2 arg3 harg3 arg4 harg4 arg5 harg5 x0 x1 x2 x3 x4 10240 inb_S256x16384_S256x2048_0_10240 inb_S64x16384_S64x2048_0_10240 inb_S1x16384_S1x2048_0_10240 (by decide) x
  · exact piece_agrees arg1 harg1 arg2 harg2 arg3 harg3 arg4 harg4 arg5 harg5 x0 x1 x2 x3 x4 8192 inb_S256x16384_S256x2048_0_8192 inb_S64x16384_S64x2048_0_8192 inb_S1x16384_S1x2048_0_8192 (by decide) x
  · exact piece_agrees arg1 harg1 arg2 harg2 arg3 harg3 arg4 harg4 arg5 harg5 x0 x1 x2 x3 x4 6144 inb_S256x16384_S256x2048_0_6144 inb_S64x16384_S64x2048_0_6144 inb_S1x16384_S1x2048_0_6144 (by decide) x
  · exact piece_agrees arg1 harg1 arg2 harg2 arg3 harg3 arg4 harg4 arg5 harg5 x0 x1 x2 x3 x4 4096 inb_S256x16384_S256x2048_0_4096 inb_S64x16384_S64x2048_0_4096 inb_S1x16384_S1x2048_0_4096 (by decide) x
  · exact piece_agrees arg1 harg1 arg2 harg2 arg3 harg3 arg4 harg4 arg5 harg5 x0 x1 x2 x3 x4 2048 inb_S256x16384_S256x2048_0_2048 inb_S64x16384_S64x2048_0_2048 inb_S1x16384_S1x2048_0_2048 (by decide) x
  · exact piece_agrees arg1 harg1 arg2 harg2 arg3 harg3 arg4 harg4 arg5 harg5 x0 x1 x2 x3 x4 0 inb_S256x16384_S256x2048_0_0 inb_S64x16384_S64x2048_0_0 inb_S1x16384_S1x2048_0_0 (by decide) x

/-- One stretch's row total is the sum of the row's exponentials over the stretch. -/
theorem stretch_total (o : ℕ) (inbW : ∀ a, (![0, o] : Fin 2 → ℕ) a + S64x2048.size a ≤ S64x16384.size a)
    (inbB : ∀ a, (![0, o] : Fin 2 → ℕ) a + S1x2048.size a ≤ S1x16384.size a) (ho : o + 2048 ≤ 16384) (p : Fin 256) :
    (∑ q : Fin 2048, k0_pay7 (F := Ideal) (k0_pay3 (F := Ideal) (View.readAt (Elt Ideal) arg1.view (Rect.unit (s := S256x1024) ![0, 0] S256x1024.size inb_S256x1024_S256x1024_0_0).toLoadRect (harg1.unread x0)) (View.readAt (Elt Ideal) arg2.view (Rect.unit (s := S1024x64) ![0, 0] S1024x64.size inb_S1024x64_S1024x64_0_0).toLoadRect (harg2.unread x1)) (View.readAt (Elt Ideal) arg3.view (Rect.unit (s := S1x64) ![0, 0] S1x64.size inb_S1x64_S1x64_0_0).toLoadRect (harg3.unread x2)))
        (View.readAt (Elt Ideal) arg4.view (Rect.unit (s := S64x16384) ![0, o] S64x2048.size inbW).toLoadRect (harg4.unread x3))
        (View.readAt (Elt Ideal) arg5.view (Rect.unit (s := S1x16384) ![0, o] S1x2048.size inbB).toLoadRect (harg5.unread x4)) (ix2 p q))
      = ∑ q : Fin 2048, expAt x0 x1 x2 x3 x4 p ⟨o + q.val, by have := q.isLt; omega⟩ :=
  Finset.sum_congr rfl fun q _ =>
    expPiece_apply arg4 harg4 arg5 harg5 x0 x1 x2 x3 x4 _ (hidden_loads arg1 harg1 arg2 harg2 arg3 harg3 x0 x1 x2) o inbW inbB p q _

/-- The row factor: one over the row's total taken stretch by stretch. -/
theorem factor_apply (p : Fin 256) :
    factor c arg1 harg1 arg2 harg2 arg3 harg3 arg4 harg4 arg5 harg5 x0 x1 x2 x3 x4 p = Ideal.div 1 (Cert.RowSoftmax.sum8 (expAt x0 x1 x2 x3 x4 p)) := by
  unfold factor kernelRun0_A.sl.r_4
  rw [recip_apply]
  unfold kernelRun0_A.sl.r_3
  rw [total8_apply]
  unfold kernelRun0_A.sl.r_2
  rw [total5_apply]
  unfold kernelRun0_A.sl.r_1 kernelRun0_A.sl.r
  rw [total2_apply]
  rw [stretch_total arg1 harg1 arg2 harg2 arg3 harg3 arg4 harg4 arg5 harg5 x0 x1 x2 x3 x4 0 inb_S64x16384_S64x2048_0_0 inb_S1x16384_S1x2048_0_0 (by decide) p,
    stretch_total arg1 harg1 arg2 harg2 arg3 harg3 arg4 harg4 arg5 harg5 x0 x1 x2 x3 x4 2048 inb_S64x16384_S64x2048_0_2048 inb_S1x16384_S1x2048_0_2048 (by decide) p,
    stretch_total arg1 harg1 arg2 harg2 arg3 harg3 arg4 harg4 arg5 harg5 x0 x1 x2 x3 x4 4096 inb_S64x16384_S64x2048_0_4096 inb_S1x16384_S1x2048_0_4096 (by decide) p,
    stretch_total arg1 harg1 arg2 harg2 arg3 harg3 arg4 harg4 arg5 harg5 x0 x1 x2 x3 x4 6144 inb_S64x16384_S64x2048_0_6144 inb_S1x16384_S1x2048_0_6144 (by decide) p,
    stretch_total arg1 harg1 arg2 harg2 arg3 harg3 arg4 harg4 arg5 harg5 x0 x1 x2 x3 x4 8192 inb_S64x16384_S64x2048_0_8192 inb_S1x16384_S1x2048_0_8192 (by decide) p,
    stretch_total arg1 harg1 arg2 harg2 arg3 harg3 arg4 harg4 arg5 harg5 x0 x1 x2 x3 x4 10240 inb_S64x16384_S64x2048_0_10240 inb_S1x16384_S1x2048_0_10240 (by decide) p,
    stretch_total arg1 harg1 arg2 harg2 arg3 harg3 arg4 harg4 arg5 harg5 x0 x1 x2 x3 x4 12288 inb_S64x16384_S64x2048_0_12288 inb_S1x16384_S1x2048_0_12288 (by decide) p,
    stretch_total arg1 harg1 arg2 harg2 arg3 harg3 arg4 harg4 arg5 harg5 x0 x1 x2 x3 x4 14336 inb_S64x16384_S64x2048_0_14336 inb_S1x16384_S1x2048_0_14336 (by decide) p]
  rfl

/-- Entry (p, q) of the block: the unshifted softmax of row p of the input block at outcome q. -/
theorem block_apply (p : Fin 256) (q : Fin 16384) :
    out0_A_5 (F := Ideal) c i arg1 harg1 arg2 harg2 arg3 harg3 arg4 harg4 arg5 harg5 arg6 harg6 x0 x1 x2 x3 x4 (ix2 p q)
      = Cert.RowSoftmax.probUnshifted (rowOf x0 p) (w1Of x1) (b1Of x2) (w2Of x3) (b2Of x4) q := by
  rw [block_scaled, old_apply, factor_apply]
  rfl

end Body

end Cert.KernelIdeal.Block

end
-- ==== Proof.KernelArray.lean ====
/-
  The output array after the run, as one function of the argument arrays.

  The grid has 16 points; point t stages rows 256 t … 256 t + 255 of the input, the whole of the two weight
  matrices, and the two biases as one-row matrices (a reshape made before the region); it writes back block t
  of the output, rows 256 t … 256 t + 255.  What the body leaves in the block is the unshifted softmax of each
  staged row, so the blocks, which tile the output, make the output array the unshifted softmax of every row of
  the input.
-/
import proofs.«120589_g17789754541001_cont_7to1_435_10_alg».proof.Proof.Gen.KernelIdeal.Value
import proofs.«120589_g17789754541001_cont_7to1_435_10_alg».proof.Proof.KernelBlock
import Idealize.ShloMosaic.Lib.StableHlo.Run
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.KernelIdeal.Block
open Idealize.ShloMosaic.Pipeline (Dat)

variable (m : (ℓ : Loc nD τ sig) → Buf (Elt Ideal) ℓ) (ρ : Dev nD → PrngReg)

/-! ## The argument arrays and the result -/

abbrev xArr (c : Dev nD) : Vec Ideal S4096x1024 .f32 := m ((c : Thread nD τ).loc main_arg0)
abbrev w1Arr (c : Dev nD) : Vec Ideal S1024x64 .f32 := m ((c : Thread nD τ).loc main_arg1)
abbrev b1Arr (c : Dev nD) : Vec Ideal S64 .f32 := m ((c : Thread nD τ).loc main_arg2)
abbrev w2Arr (c : Dev nD) : Vec Ideal S64x16384 .f32 := m ((c : Thread nD τ).loc main_arg3)
abbrev b2Arr (c : Dev nD) : Vec Ideal S16384 .f32 := m ((c : Thread nD τ).loc main_arg4)

/-- Entry (r, q) of the result: the unshifted softmax of row r of the input at outcome q. -/
def result (c : Dev nD) : S4096x16384.Idx → EReal := fun i =>
  Cert.RowSoftmax.probUnshifted (fun d : Fin 1024 => xArr m c (ix2 (⟨(i 0).val, (i 0).isLt⟩ : Fin 4096) d))
    (fun (d : Fin 1024) (k : Fin 64) => w1Arr m c (ix2 d k)) (fun k : Fin 64 => b1Arr m c (ix1 k))
    (fun (k : Fin 64) (q : Fin 16384) => w2Arr m c (ix2 k q)) (fun q : Fin 16384 => b2Arr m c (ix1 q))
    (⟨(i 1).val, (i 1).isLt⟩ : Fin 16384)

/-! ## Where the blocks sit -/

/-- The block indices over the grid: the input's and the output's row block is the point, every other index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The biases reach the region as one-row matrices: the reshapes made before it. -/
theorem V_b1 (c : Dev nD) : (V m c main_v0 : S1x64.Idx → EReal) = shapeCast S1x64 (b1Arr m c) shapeCasts_S64_S1x64 := by
  dsimp only [V, hostOps0]
  after_results
  rfl
theorem V_b2 (c : Dev nD) : (V m c main_v1 : S1x16384.Idx → EReal) = shapeCast S1x16384 (b2Arr m c) shapeCasts_S16384_S1x16384 := by
  dsimp only [V, hostOps0]
  after_results
  rfl

/-! ## What each staged block holds -/

theorem blk0_apply (c : Dev nD) (t : Fin cfg0.N) (p : Fin 256) (d : Fin 1024) (hrow : 256 * t.val + p.val < 4096) :
    (iblk m c 0 t : Vec Ideal S256x1024 .f32) (ix2 p d) = xArr m c (ix2 (⟨256 * t.val + p.val, hrow⟩ : Fin 4096) d) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 1024 + 1 * d.val = d.val; rw [e1]; omega

theorem blk1_apply (c : Dev nD) (t : Fin cfg0.N) (d : Fin 1024) (k : Fin 64) :
    (iblk m c 1 t : Vec Ideal S1024x64 .f32) (ix2 d k) = w1Arr m c (ix2 d k) := by
  obtain ⟨-, -, e0, e1, -⟩ := idx_facts t
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t (0 : Fin 2) * 1024 + 1 * d.val = d.val; rw [e0]; omega
  | ⟨1, _⟩ => show win0_1.index t (1 : Fin 2) * 64 + 1 * k.val = k.val; rw [e1]; omega

theorem blk2_apply (c : Dev nD) (t : Fin cfg0.N) (k : Fin 64) :
    (iblk m c 2 t : Vec Ideal S1x64 .f32) (ix2 (0 : Fin 1) k) = b1Arr m c (ix1 k) := by
  obtain ⟨-, -, -, -, e0, e1, -⟩ := idx_facts t
  unfold iblk
  rw [View.read_apply]
  have hj : ((cfg0.win 2).blk t).view.emb (ix2 (0 : Fin 1) k) = ix2 (0 : Fin 1) k := funext fun a => Fin.ext (by
    match a with
    | ⟨0, _⟩ => show win0_2.index t (0 : Fin 2) * 1 + 1 * 0 = 0; rw [e0]
    | ⟨1, _⟩ => show win0_2.index t (1 : Fin 2) * 64 + 1 * k.val = k.val; rw [e1]; omega)
  rw [hj]
  show (V m c main_v0 : S1x64.Idx → EReal) (ix2 (0 : Fin 1) k) = _
  rw [V_b1, shapeCast_apply _ shapeCasts_S64_S1x64 (ix2 (0 : Fin 1) k) (ix1 k) (by
    rw [Shape.rowMajor_val_one, Shape.rowMajor_val_two]; show k.val = 0 * 64 + k.val; omega)]

theorem blk3_apply (c : Dev nD) (t : Fin cfg0.N) (k : Fin 64) (q : Fin 16384) :
    (iblk m c 3 t : Vec Ideal S64x16384 .f32) (ix2 k q) = w2Arr m c (ix2 k q) := by
  obtain ⟨-, -, -, -, -, -, e0, e1, -⟩ := idx_facts t
  unfold iblk
  rw [View.read_apply]
  show V m c main_arg3 _ = m ((c : Thread nD τ).loc main_arg3) _
  rw [V_main_arg3]
  refine congrArg (m ((c : Thread nD τ).loc main_arg3)) (funext fun a => Fin.ext ?_)
  match a with
  | ⟨0, _⟩ => show win0_3.index t (0 : Fin 2) * 64 + 1 * k.val = k.val; rw [e0]; omega
  | ⟨1, _⟩ => show win0_3.index t (1 : Fin 2) * 16384 + 1 * q.val = q.val; rw [e1]; omega

theorem blk4_apply (c : Dev nD) (t : Fin cfg0.N) (q : Fin 16384) :
    (iblk m c 4 t : Vec Ideal S1x16384 .f32) (ix2 (0 : Fin 1) q) = b2Arr m c (ix1 q) := by
  obtain ⟨-, -, -, -, -, -, -, -, e0, e1, -⟩ := idx_facts t
  unfold iblk
  rw [View.read_apply]
  have hj : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e0]
    | ⟨1, _⟩ => show win0_4.index t (1 : Fin 2) * 16384 + 1 * q.val = q.val; rw [e1]; omega)
  rw [hj]
  show (V m c main_v1 : S1x16384.Idx → EReal) (ix2 (0 : Fin 1) q) = _
  rw [V_b2, shapeCast_apply _ shapeCasts_S16384_S1x16384 (ix2 (0 : Fin 1) q) (ix1 q) (by
    rw [Shape.rowMajor_val_one, Shape.rowMajor_val_two]; show q.val = 0 * 16384 + q.val; omega)]

/-! ## From the blocks to the array -/

/-- What point t writes back is block t of the result. -/
theorem flushed_eq (c : Dev nD) (t : Fin cfg0.N) :
    (dats m 0 c).flushed 5 t = ((cfg0.win 5).blk t).view.read (Elt Ideal) (result m c) := by
  rw [flushed5_A]
  obtain ⟨-, -, -, -, -, -, -, -, -, -, e50, e51⟩ := idx_facts t
  have hN : cfg0.N = 16 := N_0
  have ht : t.val < 16 := by have := t.isLt; omega
  funext y
  obtain ⟨p, q, rfl⟩ : ∃ (p : Fin 256) (q : Fin 16384), y = ix2 p q := ⟨y 0, y 1, eq_ix2 y⟩
  have hrow : 256 * t.val + p.val < 4096 := by have := p.isLt; omega
  have hemb : ((cfg0.win 5).blk t).view.emb (ix2 p q) = ix2 (⟨256 * t.val + p.val, hrow⟩ : Fin 4096) q := funext fun a => Fin.ext (by
    match a with
    | ⟨0, _⟩ => show win0_5.index t (0 : Fin 2) * 256 + 1 * p.val = 256 * t.val + p.val; rw [e50]; omega
    | ⟨1, _⟩ => show win0_5.index t (1 : Fin 2) * 16384 + 1 * q.val = q.val; rw [e51]; omega)
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix2 p q)
    = result m c (((cfg0.win 5).blk t).view.emb (ix2 p q))
  rw [hemb, block_apply]
  unfold result
  have h0 : rowOf (iblk m c 0 t) p = fun d : Fin 1024 => xArr m c (ix2 (⟨256 * t.val + p.val, hrow⟩ : Fin 4096) d) :=
    funext fun d => blk0_apply m c t p d hrow
  have h1 : w1Of (iblk m c 1 t) = fun (d : Fin 1024) (k : Fin 64) => w1Arr m c (ix2 d k) :=
    funext fun d => funext fun k => blk1_apply m c t d k
  have h2 : b1Of (iblk m c 2 t) = fun k : Fin 64 => b1Arr m c (ix1 k) := funext fun k => blk2_apply m c t k
  have h3 : w2Of (iblk m c 3 t) = fun (k : Fin 64) (q : Fin 16384) => w2Arr m c (ix2 k q) :=
    funext fun k => funext fun q => blk3_apply m c t k q
  have h4 : b2Of (iblk m c 4 t) = fun q : Fin 16384 => b2Arr m c (ix1 q) := funext fun q => blk4_apply m c t q
  rw [h0, h1, h2, h3, h4]

/-- Every entry of the output lies in the block of the point its row falls to, so the output array ends as the
    result. -/
theorem final (c : Dev nD) : (dats m 0 c).arrAt 5 cfg0.N = result m c :=
  (dats m 0 c).arrAt_eq_of_cover 5 (result m c) (fun t _ => flushed_eq m c t) fun i => by
    have hN : cfg0.N = 16 := N_0
    have hi0 : (i 0 : Nat) < 4096 := (i 0).isLt
    have hi1 : (i 1 : Nat) < 16384 := (i 1).isLt
    have htN : (i 0 : Nat) / 256 < cfg0.N := by rw [hN]; omega
    obtain ⟨-, -, -, -, -, -, -, -, -, -, e50, e51⟩ := idx_facts ⟨(i 0 : Nat) / 256, htN⟩
    refine ⟨⟨(i 0 : Nat) / 256, htN⟩, flush0_5 _, ?_⟩
    show i ∈ ((View.whole main_v2).slice (win0_5.rect ⟨(i 0 : Nat) / 256, htN⟩)).set
    rw [View.set_slice_whole, Rect.mem_set_unit]
    intro a
    match a with
    | ⟨0, _⟩ =>
      show win0_5.index ⟨(i 0 : Nat) / 256, htN⟩ (0 : Fin 2) * 256 ≤ (i 0 : Nat)
        ∧ (i 0 : Nat) < win0_5.index ⟨(i 0 : Nat) / 256, htN⟩ (0 : Fin 2) * 256 + 256
      rw [e50]; show (i 0 : Nat) / 256 * 256 ≤ (i 0 : Nat) ∧ (i 0 : Nat) < (i 0 : Nat) / 256 * 256 + 256; omega
    | ⟨1, _⟩ =>
      show win0_5.index ⟨(i 0 : Nat) / 256, htN⟩ (1 : Fin 2) * 16384 ≤ (i 1 : Nat)
        ∧ (i 1 : Nat) < win0_5.index ⟨(i 0 : Nat) / 256, htN⟩ (1 : Fin 2) * 16384 + 16384
      rw [e51]; omega

/-- The run: every weakly fair execution ends with the output at the result and the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefRead.lean ====
/-
  The reference's result, read one entry at a time: entry (r, q) of its output is the shifted softmax
  (`Cert.RowSoftmax.probShifted`) of row r of the input under the parameters, at outcome q.
-/
import proofs.«120589_g17789754541001_cont_7to1_435_10_alg».proof.Proof.Gen.ReferenceIdeal.Read
import proofs.«120589_g17789754541001_cont_7to1_435_10_alg».proof.Proof.RowSoftmax
import Idealize.ShloMosaic.Lib.ValueIdx
import Idealize.ShloMosaic.Lib.IdealHost

noncomputable section

namespace Cert.ReferenceIdeal.RefValue

open Cert.ReferenceIdeal Cert.ReferenceIdeal.Gen Idealize.ShloMosaic Idealize.ShloMosaic.TcCoe Idealize.ShloMosaic.ValueIdx

/-! ## Auxiliary facts: the word of -∞, and the stages read at explicit coordinates -/

/-- The f32 word with sign bit set, all-ones exponent and zero fraction denotes -∞. -/
theorem ofBits_negInf : Ideal.ofBits .f32 0xFF800000#32 = (⊥ : EReal) := by
  simp [Ideal.ofBits, Ideal.ieee]

section Stages

variable (X : (⟨S4096x1024, .f32⟩ : BufTy).Contents (Elt Ideal)) (W1 : (⟨S1024x64, .f32⟩ : BufTy).Contents (Elt Ideal))
  (b1 : (⟨S64, .f32⟩ : BufTy).Contents (Elt Ideal)) (W2 : (⟨S64x16384, .f32⟩ : BufTy).Contents (Elt Ideal))
  (b2 : (⟨S16384, .f32⟩ : BufTy).Contents (Elt Ideal))

/-- Entry (r, k) of the rectified affine layer is hidden unit k of row r. -/
theorem hidden_eq (r : Fin 4096) (k : Fin 64) :
    Read.val_main_v4 (F := Ideal) X W1 b1 (ix2 r k)
      = Cert.RowSoftmax.hidden (fun d : Fin 1024 => X (ix2 r d)) (fun (d : Fin 1024) (k : Fin 64) => W1 (ix2 d k)) (fun k : Fin 64 => b1 (ix1 k)) k := by
  rw [Read.val_main_v4_apply, Read.val_main_v3_apply, Read.val_main_v0_apply, Read.val_main_v2_apply,
    Read.val_main_v1_apply, Read.val_main_call0_v0_apply, Read.val_main_call0_cst_apply]
  rw [Ideal.maximumf_def, Ideal.addf_def, Ideal.ofBits_def, Ideal.ofBits_zero_f32]
  unfold Cert.RowSoftmax.hidden
  have hs : (∑ d : Fin 1024, X (Read.lidx_main_v0 (ix2 r k) d) * W1 (Read.ridx_main_v0 (ix2 r k) d))
      = ∑ d : Fin 1024, X (ix2 r d) * W1 (ix2 d k) :=
    Finset.sum_congr rfl fun d _ => by
      rw [show Read.lidx_main_v0 (ix2 r k) d = ix2 r d from funext fun a => Fin.ext (by match a with | ⟨0, _⟩ => rfl | ⟨1, _⟩ => rfl),
        show Read.ridx_main_v0 (ix2 r k) d = ix2 d k from funext fun a => Fin.ext (by match a with | ⟨0, _⟩ => rfl | ⟨1, _⟩ => rfl)]
  have hb : Read.idx_main_v1 (Read.idx_main_v2 (ix2 r k)) = ix1 k := funext fun a => Fin.ext (by match a with | ⟨0, _⟩ => rfl)
  rw [hs, hb]

/-- Entry (r, q) of the second affine layer is the logit of outcome q for row r. -/
theorem logit_eq (r : Fin 4096) (q : Fin 16384) :
    Read.val_main_v8 (F := Ideal) X W1 b1 W2 b2 (ix2 r q)
      = Cert.RowSoftmax.logit (fun d : Fin 1024 => X (ix2 r d)) (fun (d : Fin 1024) (k : Fin 64) => W1 (ix2 d k)) (fun k : Fin 64 => b1 (ix1 k))
          (fun (k : Fin 64) (q : Fin 16384) => W2 (ix2 k q)) (fun q : Fin 16384 => b2 (ix1 q)) q := by
  rw [Read.val_main_v8_apply, Read.val_main_v5_apply, Read.val_main_v7_apply, Read.val_main_v6_apply, Ideal.addf_def]
  unfold Cert.RowSoftmax.logit
  have hs : (∑ k : Fin 64, Read.val_main_v4 (F := Ideal) X W1 b1 (Read.lidx_main_v5 (ix2 r q) k) * W2 (Read.ridx_main_v5 (ix2 r q) k))
      = ∑ k : Fin 64, Cert.RowSoftmax.hidden (fun d : Fin 1024 => X (ix2 r d)) (fun (d : Fin 1024) (k : Fin 64) => W1 (ix2 d k)) (fun k : Fin 64 => b1 (ix1 k)) k * W2 (ix2 k q) :=
    Finset.sum_congr rfl fun k _ => by
      rw [show Read.lidx_main_v5 (ix2 r q) k = ix2 r k from funext fun a => Fin.ext (by match a with | ⟨0, _⟩ => rfl | ⟨1, _⟩ => rfl),
        show Read.ridx_main_v5 (ix2 r q) k = ix2 k q from funext fun a => Fin.ext (by match a with | ⟨0, _⟩ => rfl | ⟨1, _⟩ => rfl), hidden_eq]
  have hb : Read.idx_main_v6 (Read.idx_main_v7 (ix2 r q)) = ix1 q := funext fun a => Fin.ext (by match a with | ⟨0, _⟩ => rfl)
  rw [hs, hb]

/-- Row r with coordinate k put back on the reduced axis is the index (r, k). -/
theorem lift_ix (h : S4096x16384.Reduces [1] S4096) (r : Fin 4096) (k : Fin (S4096x16384.size 1)) :
    h.lift (ix1 r) k = ix2 r (⟨k.val, k.isLt⟩ : Fin 16384) := by
  funext c; apply Fin.ext
  fin_cases c <;> rfl

/-- Entry r of the maximum stage is the row's largest logit: the fold of max from -∞ over the row, once more
    against -∞. -/
theorem rowMax_eq (r : Fin 4096) :
    Read.val_main_v11 (F := Ideal) X W1 b1 W2 b2 (ix1 r)
      = Cert.RowSoftmax.rowMax (fun d : Fin 1024 => X (ix2 r d)) (fun (d : Fin 1024) (k : Fin 64) => W1 (ix2 d k)) (fun k : Fin 64 => b1 (ix1 k))
          (fun (k : Fin 64) (q : Fin 16384) => W2 (ix2 k q)) (fun q : Fin 16384 => b2 (ix1 q)) := by
  have h : S4096x16384.Reduces [1] S4096 := by decide
  rw [Read.val_main_v11_apply, Read.val_main_v10_apply, Read.val_main_cst_0_apply, Ideal.maximumf_def, Ideal.ofBits_def,
    ofBits_negInf]
  unfold Read.val_main_v9
  rw [Host.reduce_eq_fold_single FloatOps.maximumf _ _ reducesTo_S4096x16384_S4096_d1 h h_S_,
    Read.val_main_cst_apply, Ideal.ofBits_def, ofBits_negInf]
  unfold Cert.RowSoftmax.rowMax
  refine congrArg (max (⊥ : EReal)) ?_
  have hf : (Read.val_main_v8 (F := Ideal) X W1 b1 W2 b2 ∘ h.lift (ix1 r))
      = fun k : Fin 16384 => Cert.RowSoftmax.logit (fun d : Fin 1024 => X (ix2 r d)) (fun (d : Fin 1024) (k : Fin 64) => W1 (ix2 d k)) (fun k : Fin 64 => b1 (ix1 k))
          (fun (k : Fin 64) (q : Fin 16384) => W2 (ix2 k q)) (fun q : Fin 16384 => b2 (ix1 q)) k :=
    funext fun k => (congrArg (Read.val_main_v8 (F := Ideal) X W1 b1 W2 b2) (lift_ix h r k)).trans
      (logit_eq X W1 b1 W2 b2 r ⟨k.val, k.isLt⟩)
  exact congrArg (fun f => Finset.fold max (⊥ : EReal) f (Finset.univ : Finset (Fin 16384))) hf

/-- Entry (r, q) of the exponential stage is the exponential of the logit less the row's largest. -/
theorem exp_eq (r : Fin 4096) (q : Fin 16384) :
    Read.val_main_v15 (F := Ideal) X W1 b1 W2 b2 (ix2 r q)
      = Ideal.exp (Cert.RowSoftmax.logit (fun d : Fin 1024 => X (ix2 r d)) (fun (d : Fin 1024) (k : Fin 64) => W1 (ix2 d k)) (fun k : Fin 64 => b1 (ix1 k))
          (fun (k : Fin 64) (q : Fin 16384) => W2 (ix2 k q)) (fun q : Fin 16384 => b2 (ix1 q)) q
          - Cert.RowSoftmax.rowMax (fun d : Fin 1024 => X (ix2 r d)) (fun (d : Fin 1024) (k : Fin 64) => W1 (ix2 d k)) (fun k : Fin 64 => b1 (ix1 k))
          (fun (k : Fin 64) (q : Fin 16384) => W2 (ix2 k q)) (fun q : Fin 16384 => b2 (ix1 q))) := by
  rw [Read.val_main_v15_apply, Read.val_main_v14_apply, Read.val_main_v13_apply, Read.val_main_v12_apply,
    Ideal.hostUnary_exp_def, Ideal.subf_def, logit_eq,
    show Read.idx_main_v12 (Read.idx_main_v13 (ix2 r q)) = ix1 r from funext fun a => Fin.ext (by match a with | ⟨0, _⟩ => rfl), rowMax_eq]

/-- Entry (r, q) of the result is the shifted softmax of row r at outcome q. -/
theorem result_ix (r : Fin 4096) (q : Fin 16384) :
    Read.val_main_v19 (F := Ideal) X W1 b1 W2 b2 (ix2 r q)
      = Cert.RowSoftmax.probShifted (fun d : Fin 1024 => X (ix2 r d)) (fun (d : Fin 1024) (k : Fin 64) => W1 (ix2 d k)) (fun k : Fin 64 => b1 (ix1 k))
          (fun (k : Fin 64) (q : Fin 16384) => W2 (ix2 k q)) (fun q : Fin 16384 => b2 (ix1 q)) q := by
  rw [Read.val_main_v19_apply, Read.val_main_v18_apply, Read.val_main_v17_apply, Read.val_main_v16_apply,
    Read.val_main_cst_1_apply, Ideal.hostDivf_def, Ideal.ofBits_def, Ideal.ofBits_zero_f32, exp_eq]
  unfold Cert.RowSoftmax.probShifted
  refine congrArg (Ideal.div _) (congrArg (0 + ·) (Finset.sum_congr rfl fun k _ => ?_))
  rw [show Read.idx_main_v16 (Read.idx_main_v17 (Read.idx_main_v18 (ix2 r q))) k = ix2 r k from funext fun a => Fin.ext (by match a with | ⟨0, _⟩ => rfl | ⟨1, _⟩ => rfl), exp_eq]

end Stages

theorem result_apply (X : (⟨S4096x1024, .f32⟩ : BufTy).Contents (Elt Ideal)) (W1 : (⟨S1024x64, .f32⟩ : BufTy).Contents (Elt Ideal))
    (b1 : (⟨S64, .f32⟩ : BufTy).Contents (Elt Ideal)) (W2 : (⟨S64x16384, .f32⟩ : BufTy).Contents (Elt Ideal))
    (b2 : (⟨S16384, .f32⟩ : BufTy).Contents (Elt Ideal)) (i : S4096x16384.Idx) :
    Cert.ReferenceIdeal.Read.val_main_v19 (F := Ideal) X W1 b1 W2 b2 i
      = Cert.RowSoftmax.probShifted (fun d : Fin 1024 => X (ix2 (⟨(i 0).val, (i 0).isLt⟩ : Fin 4096) d))
          (fun (d : Fin 1024) (k : Fin 64) => W1 (ix2 d k)) (fun k : Fin 64 => b1 (ix1 k))
          (fun (k : Fin 64) (q : Fin 16384) => W2 (ix2 k q)) (fun q : Fin 16384 => b2 (ix1 q))
          (⟨(i 1).val, (i 1).isLt⟩ : Fin 16384) := by
  have hi : i = ix2 (⟨(i 0).val, (i 0).isLt⟩ : Fin 4096) (⟨(i 1).val, (i 1).isLt⟩ : Fin 16384) := eq_ix2 i
  exact (congrArg (Read.val_main_v19 (F := Ideal) X W1 b1 W2 b2) hi).trans
    (result_ix X W1 b1 W2 b2 ⟨(i 0).val, (i 0).isLt⟩ ⟨(i 1).val, (i 1).isLt⟩)

end Cert.ReferenceIdeal.RefValue

end
-- ==== Proof.FiniteInputs.lean ====
/-
  Under the precondition every entry of every input is a real: the precondition says that the absolute value of
  each entry is below +∞, which on the extended reals leaves exactly the reals.
-/
import proofs.«120589_g17789754541001_cont_7to1_435_10_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Cert.Pre_finite_inputs Idealize.ShloMosaic Idealize.ShloMosaic.ValueIdx

/-- The rank-0 shape has one index. -/
instance subsingleton_scalar_idx : Subsingleton S_.Idx := ⟨fun a b => funext fun d => d.elim0⟩

/-- The f32 pattern `0x7F800000` denotes +∞. -/
theorem ofBits_posInf : Ideal.ofBits .f32 0x7F800000#32 = (⊤ : EReal) := by simp [Ideal.ofBits, Ideal.ieee]

/-- An extended real whose absolute value `max x (-x)` is strictly below +∞ is a real. -/
theorem real_of_abs_lt_top (x : EReal) (hx : max x (-x) < ⊤) : ∃ r : ℝ, x = (r : EReal) := by
  induction x using EReal.rec with
  | bot => exact absurd hx (by simp)
  | top => exact absurd hx (by simp)
  | coe r => exact ⟨r, rfl⟩

/-- One array's verdict: if "every |entry| < +∞" reduced by `and` from 1 over all axes is 1, every entry is a real. -/
theorem real_of_all {S : Shape} {axes : List (Fin S.rank)}
    (hb : S_.BroadcastsInDim S (![] : Fin 0 → Fin S.rank)) (hr : S.ReducesTo axes S_) (hu : 0 < S_.numel)
    (a : FVec Ideal S .f32)
    (h : Host.reduce IntOp.andi
          (cmpf .olt (Host.absf a) (broadcastInDim S ![] hb (constant S_ .f32 0x7F800000#32)))
          (constantI S_ 1 1#1) hr hu ix0 = 1#1) :
    ∀ i, ∃ r : ℝ, a i = (r : EReal) := by
  intro i
  have e := Host.reduce_andi_all _ _ hr hu ix0 h i
  have e' : Ideal.cmp .olt (max (a i) (-(a i))) (Ideal.ofBits .f32 0x7F800000#32) = 1#1 := e
  rw [ofBits_posInf] at e'
  refine real_of_abs_lt_top (a i) ?_
  by_contra hn
  simp [Ideal.cmp, hn] at e'

theorem real_of_pre [Cert.Pre_finite_inputs.Facts]
    (a0 : FVec Ideal S4096x1024 .f32) (a1 : FVec Ideal S1024x64 .f32) (a2 : FVec Ideal S64 .f32)
    (a3 : FVec Ideal S64x16384 .f32) (a4 : FVec Ideal S16384 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ a0 h0', real_of_all _ _ _ a1 h1, real_of_all _ _ _ a2 h2, real_of_all _ _ _ a3 h3,
    real_of_all _ _ _ a4 h4⟩

end Cert.FiniteInputs

end
-- ==== Proof.lean ====
/-
  A fused two-layer network with a row softmax, against its plain reference, on the extended reals.

  Both programs compute, for each of the 4096 rows x of the input, the hidden vector max (x · W1 + b1) 0, the
  16384 logits l = hidden · W2 + b2, and the softmax of l.  The kernel works on blocks of 256 rows: it stores
  the exponentials e^l of a block in eight column stretches, adds up each row's total as it goes, and then
  rescales every stretch by one over its row's total.  The reference subtracts each row's largest logit M
  before exponentiating and divides by the sum of the shifted exponentials.

  Under the precondition every input entry is a real, so every logit is a real and so is M; then
  e^(l - M) / Σ e^(l' - M) and e^l · (1 / Σ e^l') are the same real, because the common factor e^(-M) is neither
  zero nor infinite and the total is a sum of positive reals (Proof/RowSoftmax.lean).  Without the precondition
  the two differ (an infinite logit), so the law is where the precondition is used.

  The kernel's output block is read off its run in Proof/KernelBlock.lean (the eight stretches, the read-backs and
  the rescaling, over Proof/ColumnStretches.lean and Proof/StretchValues.lean), the whole array in
  Proof/KernelArray.lean; the reference's result entry by entry in Proof/RefRead.lean; that the precondition makes
  every entry a real in Proof/FiniteInputs.lean.  The three frames are the generated ones; the idealization rewrote
  nothing, so there is nothing to preserve.
-/
import proofs.«120589_g17789754541001_cont_7to1_435_10_alg».proof.Defs
import proofs.«120589_g17789754541001_cont_7to1_435_10_alg».proof.Proof.Gen.Kernel
import proofs.«120589_g17789754541001_cont_7to1_435_10_alg».proof.Proof.Gen.Kernel.Skeleton
import proofs.«120589_g17789754541001_cont_7to1_435_10_alg».proof.Proof.Gen.Kernel.Launch
import proofs.«120589_g17789754541001_cont_7to1_435_10_alg».proof.Proof.Gen.Kernel.Points
import proofs.«120589_g17789754541001_cont_7to1_435_10_alg».proof.Proof.Gen.Kernel.Frame
import proofs.«120589_g17789754541001_cont_7to1_435_10_alg».proof.Proof.Gen.KernelIdeal
import proofs.«120589_g17789754541001_cont_7to1_435_10_alg».proof.Proof.Gen.KernelIdeal.Skeleton
import proofs.«120589_g17789754541001_cont_7to1_435_10_alg».proof.Proof.Gen.KernelIdeal.Launch
import proofs.«120589_g17789754541001_cont_7to1_435_10_alg».proof.Proof.Gen.KernelIdeal.Points
import proofs.«120589_g17789754541001_cont_7to1_435_10_alg».proof.Proof.Gen.KernelIdeal.Frame
import proofs.«120589_g17789754541001_cont_7to1_435_10_alg».proof.Proof.Gen.ReferenceIdeal
import proofs.«120589_g17789754541001_cont_7to1_435_10_alg».proof.Proof.Gen.Pre_finite_inputs
import proofs.«120589_g17789754541001_cont_7to1_435_10_alg».proof.Proof.Gen.KernelIdeal.Value
import proofs.«120589_g17789754541001_cont_7to1_435_10_alg».proof.Proof.Gen.ReferenceIdeal.Run
import proofs.«120589_g17789754541001_cont_7to1_435_10_alg».proof.Proof.Gen.ReferenceIdeal.Read
import proofs.«120589_g17789754541001_cont_7to1_435_10_alg».proof.Proof.RowSoftmax
import proofs.«120589_g17789754541001_cont_7to1_435_10_alg».proof.Proof.KernelArray
import proofs.«120589_g17789754541001_cont_7to1_435_10_alg».proof.Proof.RefRead
import proofs.«120589_g17789754541001_cont_7to1_435_10_alg».proof.Proof.FiniteInputs
import Idealize.ShloMosaic.Adequacy
import Idealize.ShloMosaic.Init

noncomputable section

namespace Cert.Proof

open Idealize.ShloMosaic Idealize.SL.Sem

/-- The two idealized programs end with the same output: the kernel's array is the unshifted softmax of every row,
    the reference's the shifted one, and on rows of reals under real parameters the two are one function. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v19_eq]
  obtain ⟨h0, h1, h2, h3, h4⟩ := Cert.FiniteInputs.real_of_pre _ _ _ _ _ (hpre c)
  funext i
  rw [Cert.ReferenceIdeal.RefValue.result_apply]
  unfold Cert.KernelIdeal.ArrayValue.result
  exact (Cert.RowSoftmax.probUnshifted_eq_probShifted (fun d => h0 _) (fun d k => h1 _) (fun k => h2 _)
    (fun k q => h3 _) (fun q => h4 _) _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
